-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x1000 : Shape := ⟨3, ![64, 128, 1000]⟩
abbrev S64x128x100 : Shape := ⟨3, ![64, 128, 100]⟩
abbrev S64000x1x384 : Shape := ⟨3, ![64000, 1, 384]⟩
abbrev S_ : Shape := ⟨0, ![]⟩

class Facts : Prop where
  bcast_S_S64x128x1000 : S_.BroadcastsInDim S64x128x1000 (![] : Fin 0 → Fin S64x128x1000.rank)
  reducesTo_S64x128x1000_S_d0_1_2 : S64x128x1000.ReducesTo [0, 1, 2] S_
  h_S_ : 0 < S_.numel
  bcast_S_S64x128x100 : S_.BroadcastsInDim S64x128x100 (![] : Fin 0 → Fin S64x128x100.rank)
  reducesTo_S64x128x100_S_d0_1_2 : S64x128x100.ReducesTo [0, 1, 2] S_
  bcast_S_S64000x1x384 : S_.BroadcastsInDim S64000x1x384 (![] : Fin 0 → Fin S64000x1x384.rank)
  reducesTo_S64000x1x384_S_d0_1_2 : S64000x1x384.ReducesTo [0, 1, 2] S_

variable [Facts]

def fn {F : FTy → Type} [FloatOps F] (main_arg0 : FVec F S64x128x1000 .f32) (main_arg1 : FVec F S64x128x100 .f32) (main_arg2 : FVec F S64000x1x384 .f32) : IVec S_ 1 :=
  let main_v0 : FVec F S64x128x1000 .f32 := Host.absf main_arg0
  let main_cst : FVec F S_ .f32 := constant S_ .f32 0x7F800000#32
  let main_v1 : FVec F S64x128x1000 .f32 := broadcastInDim S64x128x1000 ![] bcast_S_S64x128x1000 main_cst
  let main_v2 : IVec S64x128x1000 1 := cmpf .olt main_v0 main_v1
  let main_c : IVec S_ 1 := constantI S_ 1 1#1
  let main_v3 : IVec S_ 1 := (fun x v => Host.reduce IntOp.andi x v reducesTo_S64x128x1000_S_d0_1_2 h_S_) main_v2 main_c
  let main_v4 : FVec F S64x128x100 .f32 := Host.absf main_arg1
  let main_cst_0 : FVec F S_ .f32 := constant S_ .f32 0x7F800000#32
  let main_v5 : FVec F S64x128x100 .f32 := broadcastInDim S64x128x100 ![] bcast_S_S64x128x100 main_cst_0
  let main_v6 : IVec S64x128x100 1 := cmpf .olt main_v4 main_v5
  let main_c_1 : IVec S_ 1 := constantI S_ 1 1#1
  let main_v7 : IVec S_ 1 := (fun x v => Host.reduce IntOp.andi x v reducesTo_S64x128x100_S_d0_1_2 h_S_) main_v6 main_c_1
  let main_v8 : IVec S_ 1 := andi main_v3 main_v7
  let main_v9 : FVec F S64000x1x384 .f32 := Host.absf main_arg2
  let main_cst_2 : FVec F S_ .f32 := constant S_ .f32 0x7F800000#32
  let main_v10 : FVec F S64000x1x384 .f32 := broadcastInDim S64000x1x384 ![] bcast_S_S64000x1x384 main_cst_2
  let main_v11 : IVec S64000x1x384 1 := cmpf .olt main_v9 main_v10
  let main_c_3 : IVec S_ 1 := constantI S_ 1 1#1
  let main_v12 : IVec S_ 1 := (fun x v => Host.reduce IntOp.andi x v reducesTo_S64000x1x384_S_d0_1_2 h_S_) main_v11 main_c_3
  let main_v13 : IVec S_ 1 := andi main_v8 main_v12
  main_v13
-- ==== Kernel.lean ====
abbrev S64x128x1000 : Shape := ⟨3, ![64, 128, 1000]⟩
abbrev S64x128x100 : Shape := ⟨3, ![64, 128, 100]⟩
abbrev S64000x1x384 : Shape := ⟨3, ![64000, 1, 384]⟩
abbrev S64x1000x384 : Shape := ⟨3, ![64, 1000, 384]⟩
abbrev S64x512x1000 : Shape := ⟨3, ![64, 512, 1000]⟩
abbrev S1x128x1000 : Shape := ⟨3, ![1, 128, 1000]⟩
abbrev S1x128x100 : Shape := ⟨3, ![1, 128, 100]⟩
abbrev S1x1000x384 : Shape := ⟨3, ![1, 1000, 384]⟩
abbrev S1x512x1000 : Shape := ⟨3, ![1, 512, 1000]⟩
abbrev S128x1000 : Shape := ⟨2, ![128, 1000]⟩
abbrev S128x100 : Shape := ⟨2, ![128, 100]⟩
abbrev S1000x384 : Shape := ⟨2, ![1000, 384]⟩
abbrev S1000x128 : Shape := ⟨2, ![1000, 128]⟩
abbrev S100x128 : Shape := ⟨2, ![100, 128]⟩
abbrev S1000x100 : Shape := ⟨2, ![1000, 100]⟩
abbrev S1000 : Shape := ⟨1, ![1000]⟩
abbrev S1000x1 : Shape := ⟨2, ![1000, 1]⟩
abbrev S100 : Shape := ⟨1, ![100]⟩
abbrev S1x100 : Shape := ⟨2, ![1, 100]⟩
abbrev S100x1000 : Shape := ⟨2, ![100, 1000]⟩
abbrev S1000x1000 : Shape := ⟨2, ![1000, 1000]⟩
abbrev S1000x512 : Shape := ⟨2, ![1000, 512]⟩
abbrev S512x1000 : Shape := ⟨2, ![512, 1000]⟩

abbrev nBuf : Space → Nat
  | .hbm => 5
  | .vmem => 8
  | .smem => 0
  | _ => 0

abbrev bufTy : (tb : Table) → Fin (tcTables nBuf tb) → BufTy
  | .hbm, ⟨0, _⟩ => ⟨S64x128x1000, .f32⟩
  | .hbm, ⟨1, _⟩ => ⟨S64x128x100, .f32⟩
  | .hbm, ⟨2, _⟩ => ⟨S64000x1x384, .f32⟩
  | .hbm, ⟨3, _⟩ => ⟨S64x1000x384, .f32⟩
  | .hbm, ⟨4, _⟩ => ⟨S64x512x1000, .f32⟩
  | .local _ .vmem, ⟨0, _⟩ => ⟨S1x128x1000, .f32⟩
  | .local _ .vmem, ⟨1, _⟩ => ⟨S1x128x1000, .f32⟩
  | .local _ .vmem, ⟨2, _⟩ => ⟨S1x128x100, .f32⟩
  | .local _ .vmem, ⟨3, _⟩ => ⟨S1x128x100, .f32⟩
  | .local _ .vmem, ⟨4, _⟩ => ⟨S1x1000x384, .f32⟩
  | .local _ .vmem, ⟨5, _⟩ => ⟨S1x1000x384, .f32⟩
  | .local _ .vmem, ⟨6, _⟩ => ⟨S1x512x1000, .f32⟩
  | .local _ .vmem, ⟨7, _⟩ => ⟨S1x512x1000, .f32⟩
  | _, _ => ⟨S64x128x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64000x1x384_S64x1000x384 : S64000x1x384.ShapeCasts S64x1000x384
  inb_S1x128x1000_S1x128x1000_0_0_0 : ∀ a, (![0, 0, 0] : Fin 3 → Nat) a + S1x128x1000.size a ≤ S1x128x1000.size a
  h_S1x128x1000 : 0 < S1x128x1000.numel
  shapeCasts_S1x128x1000_S128x1000 : S1x128x1000.ShapeCasts S128x1000
  inb_S1x128x100_S1x128x100_0_0_0 : ∀ a, (![0, 0, 0] : Fin 3 → Nat) a + S1x128x100.size a ≤ S1x128x100.size a
  h_S1x128x100 : 0 < S1x128x100.numel
  shapeCasts_S1x128x100_S128x100 : S1x128x100.ShapeCasts S128x100
  inb_S1x1000x384_S1x1000x384_0_0_0 : ∀ a, (![0, 0, 0] : Fin 3 → Nat) a + S1x1000x384.size a ≤ S1x1000x384.size a
  h_S1x1000x384 : 0 < S1x1000x384.numel
  shapeCasts_S1x1000x384_S1000x384 : S1x1000x384.ShapeCasts S1000x384
  transposes_S128x1000_p1_0_S1000x128 : S128x1000.Transposes [1, 0] S1000x128
  transposes_S128x100_p1_0_S100x128 : S128x100.Transposes [1, 0] S100x128
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  bitsLt_bf16_f32 : FTy.bits .bf16 < FTy.bits .f32
  reduces_S1000x128_S1000 : S1000x128.Reduces [1] S1000
  shapeCasts_S1000_S1000x1 : S1000.ShapeCasts S1000x1
  broadcasts_S1000x1_S1000x100 : S1000x1.Broadcasts S1000x100
  reduces_S1000x100_S1000 : S1000x100.Reduces [1] S1000
  reduces_S1000x100_S100 : S1000x100.Reduces [0] S100
  shapeCasts_S100_S1x100 : S100.ShapeCasts S1x100
  broadcasts_S1x100_S1000x100 : S1x100.Broadcasts S1000x100
  transposes_S1000x100_p1_0_S100x1000 : S1000x100.Transposes [1, 0] S100x1000
  concatenates_S1000x128_S1000x128_S1000x128_S1000x128_S1000x512_d1 : Shape.Concatenates [S1000x128, S1000x128, S1000x128, S1000x128] S1000x512 1
  transposes_S1000x512_p1_0_S512x1000 : S1000x512.Transposes [1, 0] S512x1000
  inb_S1x512x1000_S1x512x1000_0_0_0 : ∀ a, (![0, 0, 0] : Fin 3 → Nat) a + S1x512x1000.size a ≤ S1x512x1000.size a
  h_S1x512x1000 : 0 < S1x512x1000.numel
  shapeCasts_S1x512x1000_S512x1000 : S1x512x1000.ShapeCasts S512x1000
  shapeCasts_S512x1000_S1x512x1000 : S512x1000.ShapeCasts S1x512x1000
  dot_S1000x128_S128x100_S1000x100_1_0_0_1_n_n_wf : DotDims.WF S1000x128 S128x100 S1000x100 [1] [0] [0] [1] [] []
  dot_S1000x100_S100x128_S1000x128_1_0_0_1_n_n_wf : DotDims.WF S1000x100 S100x128 S1000x128 [1] [0] [0] [1] [] []
  dot_S1000x100_S100x1000_S1000x1000_1_0_0_1_n_n_wf : DotDims.WF S1000x100 S100x1000 S1000x1000 [1] [0] [0] [1] [] []
  dot_S1000x1000_S1000x128_S1000x128_1_0_0_1_n_n_wf : DotDims.WF S1000x1000 S1000x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1000.size a ≤ S64x128x1000.size a
  hwx0_0 : ∀ i : grid0.Coords, EltTy.bits .f32 = 32 ∨ (Rect.block (s := S64x128x1000) S1x128x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x100.size a ≤ S64x128x100.size a
  hwx0_1 : ∀ i : grid0.Coords, EltTy.bits .f32 = 32 ∨ (Rect.block (s := S64x128x100) S1x128x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x384.size a ≤ S64x1000x384.size a
  hwx0_2 : ∀ i : grid0.Coords, EltTy.bits .f32 = 32 ∨ (Rect.block (s := S64x1000x384) S1x1000x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1000.size a ≤ S64x512x1000.size a
  hwx0_3 : ∀ i : grid0.Coords, EltTy.bits .f32 = 32 ∨ (Rect.block (s := S64x512x1000) S1x512x1000.size (cc0_transform_3 i) (hinb0_3 i)).WholeWords (EltTy.packing .f32)

variable [Facts₀]

def dot_S1000x128_S128x100_S1000x100_1_0_0_1_n_n : DotDims S1000x128 S128x100 S1000x100 where
  lhsContracting := [1]
  rhsContracting := [0]
  lhsNonContracting := [0]
  rhsNonContracting := [1]
  lhsBatch := []
  rhsBatch := []
  wf := dot_S1000x128_S128x100_S1000x100_1_0_0_1_n_n_wf
def dot_S1000x100_S100x128_S1000x128_1_0_0_1_n_n : DotDims S1000x100 S100x128 S1000x128 where
  lhsContracting := [1]
  rhsContracting := [0]
  lhsNonContracting := [0]
  rhsNonContracting := [1]
  lhsBatch := []
  rhsBatch := []
  wf := dot_S1000x100_S100x128_S1000x128_1_0_0_1_n_n_wf
def dot_S1000x100_S100x1000_S1000x1000_1_0_0_1_n_n : DotDims S1000x100 S100x1000 S1000x1000 where
  lhsContracting := [1]
  rhsContracting := [0]
  lhsNonContracting := [0]
  rhsNonContracting := [1]
  lhsBatch := []
  rhsBatch := []
  wf := dot_S1000x100_S100x1000_S1000x1000_1_0_0_1_n_n_wf
def dot_S1000x1000_S1000x128_S1000x128_1_0_0_1_n_n : DotDims S1000x1000 S1000x128 S1000x128 where
  lhsContracting := [1]
  rhsContracting := [0]
  lhsNonContracting := [0]
  rhsNonContracting := [1]
  lhsBatch := []
  rhsBatch := []
  wf := dot_S1000x1000_S1000x128_S1000x128_1_0_0_1_n_n_wf

abbrev win0_0 : Pipeline.Window sig grid0 :=
  Pipeline.Window.ofSpec (Memref.whole main_arg0) S1x128x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1000x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x128x1000 : Shape := ⟨3, ![64, 128, 1000]⟩
abbrev S64x128x100 : Shape := ⟨3, ![64, 128, 100]⟩
abbrev S64000x1x384 : Shape := ⟨3, ![64000, 1, 384]⟩
abbrev S64x1000x128 : Shape := ⟨3, ![64, 1000, 128]⟩
abbrev S64x100x128 : Shape := ⟨3, ![64, 100, 128]⟩
abbrev S64x1000x384 : Shape := ⟨3, ![64, 1000, 384]⟩
abbrev S64x1000x100 : Shape := ⟨3, ![64, 1000, 100]⟩
abbrev S_ : Shape := ⟨0, ![]⟩
abbrev S64x1000 : Shape := ⟨2, ![64, 1000]⟩
abbrev S64x1000x1 : Shape := ⟨3, ![64, 1000, 1]⟩
abbrev S64x100 : Shape := ⟨2, ![64, 100]⟩
abbrev S64x1x100 : Shape := ⟨3, ![64, 1, 100]⟩
abbrev S64x1000x1000 : Shape := ⟨3, ![64, 1000, 1000]⟩
abbrev S64x1000x512 : Shape := ⟨3, ![64, 1000, 512]⟩
abbrev S64x512x1000 : Shape := ⟨3, ![64, 512, 1000]⟩

abbrev nBuf : Space → Nat
  | .hbm => 54
  | .vmem => 0
  | .smem => 0
  | _ => 0

abbrev bufTy : (tb : Table) → Fin (tcTables nBuf tb) → BufTy
  | .hbm, ⟨0, _⟩ => ⟨S64x128x1000, .f32⟩
  | .hbm, ⟨1, _⟩ => ⟨S64x128x100, .f32⟩
  | .hbm, ⟨2, _⟩ => ⟨S64000x1x384, .f32⟩
  | .hbm, ⟨3, _⟩ => ⟨S64x1000x128, .f32⟩
  | .hbm, ⟨4, _⟩ => ⟨S64x100x128, .f32⟩
  | .hbm, ⟨5, _⟩ => ⟨S64x1000x384, .f32⟩
  | .hbm, ⟨6, _⟩ => ⟨S64x1000x128, .f32⟩
  | .hbm, ⟨7, _⟩ => ⟨S64x1000x128, .f32⟩
  | .hbm, ⟨8, _⟩ => ⟨S64x1000x128, .f32⟩
  | .hbm, ⟨9, _⟩ => ⟨S64x1000x100, .f32⟩
  | .hbm, ⟨10, _⟩ => ⟨S64x1000x128, .f32⟩
  | .hbm, ⟨11, _⟩ => ⟨S_, .f32⟩
  | .hbm, ⟨12, _⟩ => ⟨S64x1000, .f32⟩
  | .hbm, ⟨13, _⟩ => ⟨S64x1000x1, .f32⟩
  | .hbm, ⟨14, _⟩ => ⟨S64x1000x100, .f32⟩
  | .hbm, ⟨15, _⟩ => ⟨S64x1000x100, .f32⟩
  | .hbm, ⟨16, _⟩ => ⟨S64x1000x128, .f32⟩
  | .hbm, ⟨17, _⟩ => ⟨S64x1000x100, .f32⟩
  | .hbm, ⟨18, _⟩ => ⟨S64x1000x100, .f32⟩
  | .hbm, ⟨19, _⟩ => ⟨S_, .f32⟩
  | .hbm, ⟨20, _⟩ => ⟨S64x1000, .f32⟩
  | .hbm, ⟨21, _⟩ => ⟨S_, .f32⟩
  | .hbm, ⟨22, _⟩ => ⟨S64x1000, .f32⟩
  | .hbm, ⟨23, _⟩ => ⟨S64x1000, .f32⟩
  | .hbm, ⟨24, _⟩ => ⟨S64x1000x1, .f32⟩
  | .hbm, ⟨25, _⟩ => ⟨S64x1000x100, .f32⟩
  | .hbm, ⟨26, _⟩ => ⟨S64x1000x100, .f32⟩
  | .hbm, ⟨27, _⟩ => ⟨S64x1000x100, .f32⟩
  | .hbm, ⟨28, _⟩ => ⟨S_, .f32⟩
  | .hbm, ⟨29, _⟩ => ⟨S64x1000, .f32⟩
  | .hbm, ⟨30, _⟩ => ⟨S64x1000x1, .f32⟩
  | .hbm, ⟨31, _⟩ => ⟨S64x1000x100, .f32⟩
  | .hbm, ⟨32, _⟩ => ⟨S64x1000x100, .f32⟩
  | .hbm, ⟨33, _⟩ => ⟨S_, .f32⟩
  | .hbm, ⟨34, _⟩ => ⟨S64x100, .f32⟩
  | .hbm, ⟨35, _⟩ => ⟨S_, .f32⟩
  | .hbm, ⟨36, _⟩ => ⟨S64x100, .f32⟩
  | .hbm, ⟨37, _⟩ => ⟨S64x100, .f32⟩
  | .hbm, ⟨38, _⟩ => ⟨S64x1x100, .f32⟩
  | .hbm, ⟨39, _⟩ => ⟨S64x1000x100, .f32⟩
  | .hbm, ⟨40, _⟩ => ⟨S64x1000x100, .f32⟩
  | .hbm, ⟨41, _⟩ => ⟨S64x1000x100, .f32⟩
  | .hbm, ⟨42, _⟩ => ⟨S_, .f32⟩
  | .hbm, ⟨43, _⟩ => ⟨S64x100, .f32⟩
  | .hbm, ⟨44, _⟩ => ⟨S64x1x100, .f32⟩
  | .hbm, ⟨45, _⟩ => ⟨S64x1000x100, .f32⟩
  | .hbm, ⟨46, _⟩ => ⟨S64x1000x100, .f32⟩
  | .hbm, ⟨47, _⟩ => ⟨S64x1000x128, .f32⟩
  | .hbm, ⟨48, _⟩ => ⟨S64x1000x1000, .f32⟩
  | .hbm, ⟨49, _⟩ => ⟨S64x1000x128, .f32⟩
  | .hbm, ⟨50, _⟩ => ⟨S64x1000x128, .f32⟩
  | .hbm, ⟨51, _⟩ => ⟨S64x1000x128, .f32⟩
  | .hbm, ⟨52, _⟩ => ⟨S64x1000x512, .f32⟩
  | .hbm, ⟨53, _⟩ => ⟨S64x512x1000, .f32⟩
  | _, _ => ⟨S64x128x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

class Facts₀ : Prop where
  transposes_S64x128x1000_S64x1000x128_0_2_1 : S64x128x1000.Transposes [0, 2, 1] S64x1000x128
  transposes_S64x128x100_S64x100x128_0_2_1 : S64x128x100.Transposes [0, 2, 1] S64x100x128
  shapeCasts_S64000x1x384_S64x1000x384 : S64000x1x384.ShapeCasts S64x1000x384
  slices_S64x1000x384_S64x1000x128_0_0_0 : S64x1000x384.Slices ![0, 0, 0] S64x1000x128
  slices_S64x1000x384_S64x1000x128_0_0_128 : S64x1000x384.Slices ![0, 0, 128] S64x1000x128
  slices_S64x1000x384_S64x1000x128_0_0_256 : S64x1000x384.Slices ![0, 0, 256] S64x1000x128
  reducesTo_S64x1000x128_S64x1000_d2 : S64x1000x128.ReducesTo [2] S64x1000
  h_S_ : 0 < S_.numel
  bcast_S64x1000_S64x1000x1_0_1 : S64x1000.BroadcastsInDim S64x1000x1 (![0, 1] : Fin 2 → Fin S64x1000x1.rank)
  bcast_S64x1000x1_S64x1000x100_0_1_2 : S64x1000x1.BroadcastsInDim S64x1000x100 (![0, 1, 2] : Fin 3 → Fin S64x1000x100.rank)
  reducesTo_S64x1000x100_S64x1000_d2 : S64x1000x100.ReducesTo [2] S64x1000
  bcast_S_S64x1000 : S_.BroadcastsInDim S64x1000 (![] : Fin 0 → Fin S64x1000.rank)
  reducesTo_S64x1000x100_S64x100_d1 : S64x1000x100.ReducesTo [1] S64x100
  bcast_S_S64x100 : S_.BroadcastsInDim S64x100 (![] : Fin 0 → Fin S64x100.rank)
  bcast_S64x100_S64x1x100_0_2 : S64x100.BroadcastsInDim S64x1x100 (![0, 2] : Fin 2 → Fin S64x1x100.rank)
  bcast_S64x1x100_S64x1000x100_0_1_2 : S64x1x100.BroadcastsInDim S64x1000x100 (![0, 1, 2] : Fin 3 → Fin S64x1000x100.rank)
  concatenates_S64x1000x128_S64x1000x128_S64x1000x128_S64x1000x128_S64x1000x512_d2 : Shape.Concatenates [S64x1000x128, S64x1000x128, S64x1000x128, S64x1000x128] S64x1000x512 2
  transposes_S64x1000x512_S64x512x1000_0_2_1 : S64x1000x512.Transposes [0, 2, 1] S64x512x1000
  dot_S64x1000x128_S64x100x128_S64x1000x100_2_2_1_1_0_0_wf : DotDims.WF S64x1000x128 S64x100x128 S64x1000x100 [2] [2] [1] [1] [0] [0]
  dot_S64x1000x100_S64x100x128_S64x1000x128_2_1_1_2_0_0_wf : DotDims.WF S64x1000x100 S64x100x128 S64x1000x128 [2] [1] [1] [2] [0] [0]
  dot_S64x1000x100_S64x1000x100_S64x1000x1000_2_2_1_1_0_0_wf : DotDims.WF S64x1000x100 S64x1000x100 S64x1000x1000 [2] [2] [1] [1] [0] [0]
  dot_S64x1000x1000_S64x1000x128_S64x1000x128_2_1_1_2_0_0_wf : DotDims.WF S64x1000x1000 S64x1000x128 S64x1000x128 [2] [1] [1] [2] [0] [0]

variable [Facts₀]

def dot_S64x1000x128_S64x100x128_S64x1000x100_2_2_1_1_0_0 : DotDims S64x1000x128 S64x100x128 S64x1000x100 where
  lhsContracting := [2]
  rhsContracting := [2]
  lhsNonContracting := [1]
  rhsNonContracting := [1]
  lhsBatch := [0]
  rhsBatch := [0]
  wf := dot_S64x1000x128_S64x100x128_S64x1000x100_2_2_1_1_0_0_wf
def dot_S64x1000x100_S64x100x128_S64x1000x128_2_1_1_2_0_0 : DotDims S64x1000x100 S64x100x128 S64x1000x128 where
  lhsContracting := [2]
  rhsContracting := [1]
  lhsNonContracting := [1]
  rhsNonContracting := [2]
  lhsBatch := [0]
  rhsBatch := [0]
  wf := dot_S64x1000x100_S64x100x128_S64x1000x128_2_1_1_2_0_0_wf
def dot_S64x1000x100_S64x1000x100_S64x1000x1000_2_2_1_1_0_0 : DotDims S64x1000x100 S64x1000x100 S64x1000x1000 where
  lhsContracting := [2]
  rhsContracting := [2]
  lhsNonContracting := [1]
  rhsNonContracting := [1]
  lhsBatch := [0]
  rhsBatch := [0]
  wf := dot_S64x1000x100_S64x1000x100_S64x1000x1000_2_2_1_1_0_0_wf
def dot_S64x1000x1000_S64x1000x128_S64x1000x128_2_1_1_2_0_0 : DotDims S64x1000x1000 S64x1000x128 S64x1000x128 where
  lhsContracting := [2]
  rhsContracting := [1]
  lhsNonContracting := [1]
  rhsNonContracting := [2]
  lhsBatch := [0]
  rhsBatch := [0]
  wf := dot_S64x1000x1000_S64x1000x128_S64x1000x128_2_1_1_2_0_0_wf

class Facts : Prop extends Facts₀ where

variable [Facts]
-- ==== Proof.LibBatchSlice.lean ====
/-
  Batch slices. A kernel that runs one grid point per batch element computes, on matrices, what a batched
  reference computes on stacks of matrices. This file fixes what it means for a matrix to be "the batch-`b` slice" of
  a stack (and for a vector to be the batch-`b` row of a matrix), and carries that relation through the operations
  both sides apply: pointwise arithmetic, transposes, slices along the last axis, and the unit-axis casts and
  broadcasts of a `keepdims` reduction. Everything is at the ideal values (extended reals), at any extents.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Idealize.ShloMosaic.BatchSlice

open Idealize.ShloMosaic Idealize.ShloMosaic.ValueIdx

variable {N A B : ℕ} {φ ψ : FTy}

/-- The matrix `x` is the batch-`b` slice of the stack `X`: entry `(i, j)` of `x` is entry `(b, i, j)` of `X`. -/
def Sl (b : Fin N) (x : FVec Ideal ⟨2, ![A, B]⟩ φ) (X : FVec Ideal ⟨3, ![N, A, B]⟩ ψ) : Prop :=
  ∀ (i : Fin A) (j : Fin B), x (ix2 i j) = X (ix3 b i j)

/-- The matrix `x` is the TRANSPOSE of the batch-`b` slice of `X`: entry `(j, i)` of `x` is entry `(b, i, j)` of `X`. -/
def SlT (b : Fin N) (x : FVec Ideal ⟨2, ![B, A]⟩ φ) (X : FVec Ideal ⟨3, ![N, A, B]⟩ ψ) : Prop :=
  ∀ (i : Fin A) (j : Fin B), x (ix2 j i) = X (ix3 b i j)

/-- The vector `v` is row `b` of the matrix `V`. -/
def Sl1 (b : Fin N) (v : FVec Ideal ⟨1, ![A]⟩ φ) (V : FVec Ideal ⟨2, ![N, A]⟩ ψ) : Prop :=
  ∀ i : Fin A, v (ix1 i) = V (ix2 b i)

/-! ## Pointwise operations -/

section Pointwise
variable {b : Fin N} {x y : FVec Ideal ⟨2, ![A, B]⟩ φ} {X Y : FVec Ideal ⟨3, ![N, A, B]⟩ ψ}

theorem sl_addf (hx : Sl b x X) (hy : Sl b y Y) : Sl b (addf x y) (addf X Y) :=
  fun i j => congrArg₂ (fun u v : EReal => u + v) (hx i j) (hy i j)

theorem sl_subf (hx : Sl b x X) (hy : Sl b y Y) : Sl b (subf x y) (subf X Y) :=
  fun i j => congrArg₂ (fun u v : EReal => u - v) (hx i j) (hy i j)

theorem sl_mulf (hx : Sl b x X) (hy : Sl b y Y) : Sl b (mulf x y) (mulf X Y) :=
  fun i j => congrArg₂ (fun u v : EReal => u * v) (hx i j) (hy i j)

/-- The kernel's quotient and the host's are one function at the ideal values. -/
theorem sl_divf (hx : Sl b x X) (hy : Sl b y Y) : Sl b (divf x y) (Host.divf X Y) :=
  fun i j => congrArg₂ Ideal.div (hx i j) (hy i j)

/-- The kernel's exponential and the host's are one function at the ideal values. -/
theorem sl_exp (hx : Sl b x X) : Sl b (exp x) (Host.exp X) :=
  fun i j => congrArg Ideal.exp (hx i j)

/-- A change of float format is the identity at the ideal values. -/
theorem sl_truncf {χ : FTy} (hx : Sl b x X) (h : χ.bits < φ.bits) : Sl b (truncf χ x h) X :=
  fun i j => hx i j

theorem slT_truncf {χ : FTy} {x : FVec Ideal ⟨2, ![B, A]⟩ φ} (hx : SlT b x X) (h : χ.bits < φ.bits) : SlT b (truncf χ x h) X :=
  fun i j => hx i j

end Pointwise

/-- The larger of a constant and a row, entry by entry: the same on both sides when the constants agree. -/
theorem sl1_maximumf_const {b : Fin N} {v : FVec Ideal ⟨1, ![A]⟩ φ} {V : FVec Ideal ⟨2, ![N, A]⟩ ψ} (c : EReal)
    {k : FVec Ideal ⟨1, ![A]⟩ φ} {K : FVec Ideal ⟨2, ![N, A]⟩ ψ} (hk : ∀ i, k i = c) (hK : ∀ i, K i = c) (hv : Sl1 b v V) :
    Sl1 b (maximumf k v) (maximumf K V) :=
  fun i => congrArg₂ (fun u w : EReal => max u w) ((hk _).trans (hK _).symm) (hv i)

/-! ## Transposes -/

/-- A matrix transposed is the transposed slice. -/
theorem sl_transpose {b : Fin N} {x : FVec Ideal ⟨2, ![A, B]⟩ φ} {X : FVec Ideal ⟨3, ![N, A, B]⟩ ψ} (hx : Sl b x X)
    (h : (⟨2, ![A, B]⟩ : Shape).Transposes [1, 0] ⟨2, ![B, A]⟩) : SlT b (transpose ⟨2, ![B, A]⟩ [1, 0] x h) X :=
  fun i j => (transpose_ix2_apply x h j i).trans (hx i j)

/-- The transposed slice of a stack is the slice of the stack with its last two axes swapped. -/
theorem slT_toSl {b : Fin N} {y : FVec Ideal ⟨2, ![B, A]⟩ φ} {X : FVec Ideal ⟨3, ![N, A, B]⟩ ψ} (hy : SlT b y X)
    (h : (⟨3, ![N, A, B]⟩ : Shape).Transposes [0, 2, 1] ⟨3, ![N, B, A]⟩) : Sl b y (transpose ⟨3, ![N, B, A]⟩ [0, 2, 1] X h) :=
  fun j i => (hy i j).trans (transpose_ix3_021_apply X h b j i).symm

/-- A slice of a stack is the transposed slice of the stack with its last two axes swapped. -/
theorem sl_toSlT {b : Fin N} {x : FVec Ideal ⟨2, ![A, B]⟩ φ} {X : FVec Ideal ⟨3, ![N, A, B]⟩ ψ} (hx : Sl b x X)
    (h : (⟨3, ![N, A, B]⟩ : Shape).Transposes [0, 2, 1] ⟨3, ![N, B, A]⟩) : SlT b x (transpose ⟨3, ![N, B, A]⟩ [0, 2, 1] X h) :=
  fun j i => (hx i j).trans (transpose_ix3_021_apply X h b j i).symm

/-! ## A block with a leading unit axis -/

/-- A `[1, A, B]` block whose entries are the batch-`b` entries of a stack, cast to `[A, B]`, is the batch-`b` slice. -/
theorem sl_ofBlock {b : Fin N} {x : FVec Ideal ⟨3, ![1, A, B]⟩ φ} {X : FVec Ideal ⟨3, ![N, A, B]⟩ ψ}
    (hx : ∀ (i : Fin A) (j : Fin B), x (ix3 (0 : Fin 1) i j) = X (ix3 b i j))
    (h : (⟨3, ![1, A, B]⟩ : Shape).ShapeCasts ⟨2, ![A, B]⟩) : Sl b (shapeCast ⟨2, ![A, B]⟩ x h) X :=
  fun i j => (shapeCast_1ab_ab_apply x h i j).trans (hx i j)

/-! ## A slice along the last axis -/

/-- Columns `o … o + M - 1` of a slice are the same columns of the stack. -/
theorem sl_cols {M : ℕ} {b : Fin N} {x : FVec Ideal ⟨2, ![A, B]⟩ φ} {X : FVec Ideal ⟨3, ![N, A, B]⟩ ψ} (hx : Sl b x X) (o : ℕ)
    (h : (⟨2, ![A, B]⟩ : Shape).Slices ![0, o] ⟨2, ![A, M]⟩) (H : (⟨3, ![N, A, B]⟩ : Shape).Slices ![0, 0, o] ⟨3, ![N, A, M]⟩) :
    Sl b (extractStridedSlice ⟨2, ![A, M]⟩ ![0, o] x h) (extractStridedSlice ⟨3, ![N, A, M]⟩ ![0, 0, o] X H) :=
  fun i j =>
    have hlt : o + j.val < B := Nat.lt_of_lt_of_le (Nat.add_lt_add_left j.isLt o) (h.2 1)
    (slice2_axis1_apply o x h i j ⟨o + j.val, hlt⟩ rfl).trans ((hx i ⟨o + j.val, hlt⟩).trans
      (extractStridedSlice_apply ![0, 0, o] X H (ix3 b i j) (ix3 b i ⟨o + j.val, hlt⟩) (fun ax => by
        match ax with
        | ⟨0, _⟩ => exact (Nat.zero_add _).symm
        | ⟨1, _⟩ => exact (Nat.zero_add _).symm
        | ⟨2, _⟩ => rfl)).symm)

end Idealize.ShloMosaic.BatchSlice

end
-- ==== Proof.LibBatchReduce.lean ====
/-
  Batch slices through reductions. A kernel that reduces a matrix along one of its axes, per batch element, against a
  reference that reduces a stack of matrices along the matching axis: the row (or column) sums and maxima of the
  batch-`b` slice are row `b` of the stack's, and a `keepdims` result broadcast back over the matrix is the slice of
  the reference's broadcast. At the ideal values a sum is a finite sum and a maximum a fold of `max` over the reduced
  axis's coordinates on both sides, so each statement is a term-by-term comparison.
-/
import proofs.«139456_j84851373900367_1_alg».proof.Proof.LibBatchSlice
import Idealize.ShloMosaic.PureOps.Reduce

noncomputable section

namespace Idealize.ShloMosaic.BatchSlice

open Idealize.ShloMosaic Idealize.ShloMosaic.ValueIdx

variable {N A B : ℕ} {φ ψ : FTy}

/-! ## A reduced row or column broadcast back over the matrix -/

/-- One value per row, laid out as a column and repeated along the rows: the kernel's `[A] → [A, 1] → [A, B]` against the
    reference's `[N, A] → [N, A, 1] → [N, A, B]`. -/
theorem sl_colBroadcast {b : Fin N} {v : FVec Ideal ⟨1, ![A]⟩ φ} {V : FVec Ideal ⟨2, ![N, A]⟩ ψ} (hv : Sl1 b v V)
    (hc : (⟨1, ![A]⟩ : Shape).ShapeCasts ⟨2, ![A, 1]⟩) (hb : (⟨2, ![A, 1]⟩ : Shape).Broadcasts ⟨2, ![A, B]⟩)
    (H1 : (⟨2, ![N, A]⟩ : Shape).BroadcastsInDim ⟨3, ![N, A, 1]⟩ ![0, 1])
    (H2 : (⟨3, ![N, A, 1]⟩ : Shape).BroadcastsInDim ⟨3, ![N, A, B]⟩ ![0, 1, 2]) :
    Sl b (broadcastTo ⟨2, ![A, B]⟩ (shapeCast ⟨2, ![A, 1]⟩ v hc) hb)
      (broadcastInDim ⟨3, ![N, A, B]⟩ ![0, 1, 2] H2 (broadcastInDim ⟨3, ![N, A, 1]⟩ ![0, 1] H1 V)) := by
  intro i j
  have e1 : broadcastTo ⟨2, ![A, B]⟩ (shapeCast ⟨2, ![A, 1]⟩ v hc) hb (ix2 i j)
      = shapeCast ⟨2, ![A, 1]⟩ v hc (ix2 i (0 : Fin 1)) :=
    broadcastTo_apply _ hb (ix2 i j) (ix2 i (0 : Fin 1)) fun ax => by
      match ax with
      | ⟨0, _⟩ =>
        show i.val = if A = 1 then 0 else i.val
        split
        · have := i.isLt; omega
        · rfl
      | ⟨1, _⟩ => rfl
  have e2 : shapeCast ⟨2, ![A, 1]⟩ v hc (ix2 i (0 : Fin 1)) = v (ix1 i) :=
    shapeCast_apply v hc _ _ (by
      rw [Shape.rowMajor_val_two, Shape.rowMajor_val_one]
      show i.val = i.val * 1 + 0
      omega)
  have e3 : broadcastInDim ⟨3, ![N, A, B]⟩ ![0, 1, 2] H2 (broadcastInDim ⟨3, ![N, A, 1]⟩ ![0, 1] H1 V) (ix3 b i j)
      = broadcastInDim ⟨3, ![N, A, 1]⟩ ![0, 1] H1 V (ix3 b i (0 : Fin 1)) :=
    broadcastInDim_apply ![0, 1, 2] H2 _ (ix3 b i j) (ix3 b i (0 : Fin 1)) fun ax => by
      match ax with
      | ⟨0, _⟩ =>
        show b.val = if N = 1 then 0 else b.val
        split
        · have := b.isLt; omega
        · rfl
      | ⟨1, _⟩ =>
        show i.val = if A = 1 then 0 else i.val
        split
        · have := i.isLt; omega
        · rfl
      | ⟨2, _⟩ => rfl
  have e4 : broadcastInDim ⟨3, ![N, A, 1]⟩ ![0, 1] H1 V (ix3 b i (0 : Fin 1)) = V (ix2 b i) :=
    broadcastInDim_apply ![0, 1] H1 V (ix3 b i (0 : Fin 1)) (ix2 b i) fun ax => by
      match ax with
      | ⟨0, _⟩ =>
        show b.val = if N = 1 then 0 else b.val
        split
        · have := b.isLt; omega
        · rfl
      | ⟨1, _⟩ =>
        show i.val = if A = 1 then 0 else i.val
        split
        · have := i.isLt; omega
        · rfl
  exact e1.trans (e2.trans ((hv i).trans (e3.trans e4).symm))

/-- One value per column, laid out as a row and repeated down the rows: the kernel's `[B] → [1, B] → [A, B]` against the
    reference's `[N, B] → [N, 1, B] → [N, A, B]`. -/
theorem sl_rowBroadcast {b : Fin N} {v : FVec Ideal ⟨1, ![B]⟩ φ} {V : FVec Ideal ⟨2, ![N, B]⟩ ψ} (hv : Sl1 b v V)
    (hc : (⟨1, ![B]⟩ : Shape).ShapeCasts ⟨2, ![1, B]⟩) (hb : (⟨2, ![1, B]⟩ : Shape).Broadcasts ⟨2, ![A, B]⟩)
    (H1 : (⟨2, ![N, B]⟩ : Shape).BroadcastsInDim ⟨3, ![N, 1, B]⟩ ![0, 2])
    (H2 : (⟨3, ![N, 1, B]⟩ : Shape).BroadcastsInDim ⟨3, ![N, A, B]⟩ ![0, 1, 2]) :
    Sl b (broadcastTo ⟨2, ![A, B]⟩ (shapeCast ⟨2, ![1, B]⟩ v hc) hb)
      (broadcastInDim ⟨3, ![N, A, B]⟩ ![0, 1, 2] H2 (broadcastInDim ⟨3, ![N, 1, B]⟩ ![0, 2] H1 V)) := by
  intro i j
  have e1 := broadcastTo_1b_ab_apply (shapeCast ⟨2, ![1, B]⟩ v hc) hb i j
  have e2 := shapeCast_a_1a_apply v hc (0 : Fin 1) j
  have e3 : broadcastInDim ⟨3, ![N, A, B]⟩ ![0, 1, 2] H2 (broadcastInDim ⟨3, ![N, 1, B]⟩ ![0, 2] H1 V) (ix3 b i j)
      = broadcastInDim ⟨3, ![N, 1, B]⟩ ![0, 2] H1 V (ix3 b (0 : Fin 1) j) :=
    broadcastInDim_apply ![0, 1, 2] H2 _ (ix3 b i j) (ix3 b (0 : Fin 1) j) fun ax => by
      match ax with
      | ⟨0, _⟩ =>
        show b.val = if N = 1 then 0 else b.val
        split
        · have := b.isLt; omega
        · rfl
      | ⟨1, _⟩ => rfl
      | ⟨2, _⟩ =>
        show j.val = if B = 1 then 0 else j.val
        split
        · have := j.isLt; omega
        · rfl
  have e4 : broadcastInDim ⟨3, ![N, 1, B]⟩ ![0, 2] H1 V (ix3 b (0 : Fin 1) j) = V (ix2 b j) :=
    broadcastInDim_apply ![0, 2] H1 V (ix3 b (0 : Fin 1) j) (ix2 b j) fun ax => by
      match ax with
      | ⟨0, _⟩ =>
        show b.val = if N = 1 then 0 else b.val
        split
        · have := b.isLt; omega
        · rfl
      | ⟨1, _⟩ =>
        show j.val = if B = 1 then 0 else j.val
        split
        · have := j.isLt; omega
        · rfl
  exact e1.trans (e2.trans ((hv j).trans (e3.trans e4).symm))

/-! ## Sums along an axis -/

/-- Row sums: the kernel's sum over the columns of the slice is row `b` of the reference's sum over the last axis of the
    stack, when the reference starts from zero. -/
theorem sl1_rowSum {b : Fin N} {x : FVec Ideal ⟨2, ![A, B]⟩ φ} {X : FVec Ideal ⟨3, ![N, A, B]⟩ φ} (hx : Sl b x X)
    (acc : BitVec φ.bits) (h : (⟨2, ![A, B]⟩ : Shape).Reduces [1] ⟨1, ![A]⟩) (hφ : FKind.Formats φ)
    (hacc : acc = FKind.add.neutral φ hφ) {u : Shape} (init : u.Idx → Ideal φ)
    (h' : (⟨3, ![N, A, B]⟩ : Shape).ReducesTo [2] ⟨2, ![N, A]⟩) (hR : (⟨3, ![N, A, B]⟩ : Shape).Reduces [2] ⟨2, ![N, A]⟩)
    (hu : 0 < u.numel) (hinit : init (Shape.Idx.first hu) = 0) :
    Sl1 b (multiReduction .add [1] ⟨1, ![A]⟩ x acc h hφ hacc) (Host.reduceAdd X init h' hu) := by
  intro i
  refine (Ideal.multiReduction_add_single x acc h hφ hacc (ix1 i)).trans ?_
  refine Eq.trans ?_ (Ideal.hostReduceAdd_single h' hR X (init (Shape.Idx.first hu)) (ix2 b i)).symm
  rw [hinit, zero_add]
  show (∑ k : Fin B, x (h.lift (ix1 i) k)) = ∑ k : Fin B, X (hR.lift (ix2 b i) k)
  refine Finset.sum_congr rfl fun k _ => ?_
  have el : h.lift (ix1 i) k = ix2 i k := funext fun a => Fin.ext (by match a with | ⟨0, _⟩ => rfl | ⟨1, _⟩ => rfl)
  have er : hR.lift (ix2 b i) k = ix3 b i k := funext fun a => Fin.ext (by match a with | ⟨0, _⟩ => rfl | ⟨1, _⟩ => rfl | ⟨2, _⟩ => rfl)
  rw [el, er]; exact hx i k

/-- Column sums: the kernel's sum over the rows of the slice is row `b` of the reference's sum over the middle axis. -/
theorem sl1_colSum {b : Fin N} {x : FVec Ideal ⟨2, ![A, B]⟩ φ} {X : FVec Ideal ⟨3, ![N, A, B]⟩ φ} (hx : Sl b x X)
    (acc : BitVec φ.bits) (h : (⟨2, ![A, B]⟩ : Shape).Reduces [0] ⟨1, ![B]⟩) (hφ : FKind.Formats φ)
    (hacc : acc = FKind.add.neutral φ hφ) {u : Shape} (init : u.Idx → Ideal φ)
    (h' : (⟨3, ![N, A, B]⟩ : Shape).ReducesTo [1] ⟨2, ![N, B]⟩) (hR : (⟨3, ![N, A, B]⟩ : Shape).Reduces [1] ⟨2, ![N, B]⟩)
    (hu : 0 < u.numel) (hinit : init (Shape.Idx.first hu) = 0) :
    Sl1 b (multiReduction .add [0] ⟨1, ![B]⟩ x acc h hφ hacc) (Host.reduceAdd X init h' hu) := by
  intro j
  refine (Ideal.multiReduction_add_single x acc h hφ hacc (ix1 j)).trans ?_
  refine Eq.trans ?_ (Ideal.hostReduceAdd_single h' hR X (init (Shape.Idx.first hu)) (ix2 b j)).symm
  rw [hinit, zero_add]
  show (∑ k : Fin A, x (h.lift (ix1 j) k)) = ∑ k : Fin A, X (hR.lift (ix2 b j) k)
  refine Finset.sum_congr rfl fun k _ => ?_
  have el : h.lift (ix1 j) k = ix2 k j := funext fun a => Fin.ext (by match a with | ⟨0, _⟩ => rfl | ⟨1, _⟩ => rfl)
  have er : hR.lift (ix2 b j) k = ix3 b k j := funext fun a => Fin.ext (by match a with | ⟨0, _⟩ => rfl | ⟨1, _⟩ => rfl | ⟨2, _⟩ => rfl)
  rw [el, er]; exact hx k j

/-! ## Maxima along an axis -/

/-- Row maxima: both sides fold `max` from the same starting value over the columns. -/
theorem sl1_rowMax {b : Fin N} {x : FVec Ideal ⟨2, ![A, B]⟩ φ} {X : FVec Ideal ⟨3, ![N, A, B]⟩ φ} (hx : Sl b x X)
    (acc : BitVec φ.bits) (h : (⟨2, ![A, B]⟩ : Shape).Reduces [1] ⟨1, ![A]⟩) (hφ : FKind.Formats φ)
    (hacc : acc = FKind.maximumf.neutral φ hφ) {u : Shape} (init : u.Idx → Ideal φ)
    (h' : (⟨3, ![N, A, B]⟩ : Shape).ReducesTo [2] ⟨2, ![N, A]⟩) (hR : (⟨3, ![N, A, B]⟩ : Shape).Reduces [2] ⟨2, ![N, A]⟩)
    (hu : 0 < u.numel) (hinit : init (Shape.Idx.first hu) = FloatOps.ofBits φ acc) :
    Sl1 b (multiReduction .maximumf [1] ⟨1, ![A]⟩ x acc h hφ hacc) (Host.reduce FloatOps.maximumf X init h' hu) := by
  intro i
  refine (Ideal.multiReduction_maximumf_single x acc h hφ hacc (ix1 i)).trans ?_
  refine Eq.trans ?_ (Host.reduce_eq_fold_single FloatOps.maximumf X init h' hR hu (ix2 b i)).symm
  rw [hinit]
  show (Finset.univ : Finset (Fin B)).fold max (FloatOps.ofBits φ acc) (x ∘ h.lift (ix1 i))
    = (Finset.univ : Finset (Fin B)).fold max (FloatOps.ofBits φ acc) (X ∘ hR.lift (ix2 b i))
  refine Finset.fold_congr fun k _ => ?_
  have el : h.lift (ix1 i) k = ix2 i k := funext fun a => Fin.ext (by match a with | ⟨0, _⟩ => rfl | ⟨1, _⟩ => rfl)
  have er : hR.lift (ix2 b i) k = ix3 b i k := funext fun a => Fin.ext (by match a with | ⟨0, _⟩ => rfl | ⟨1, _⟩ => rfl | ⟨2, _⟩ => rfl)
  show x (h.lift (ix1 i) k) = X (hR.lift (ix2 b i) k)
  rw [el, er]; exact hx i k

/-- Column maxima: both sides fold `max` from the same starting value over the rows. -/
theorem sl1_colMax {b : Fin N} {x : FVec Ideal ⟨2, ![A, B]⟩ φ} {X : FVec Ideal ⟨3, ![N, A, B]⟩ φ} (hx : Sl b x X)
    (acc : BitVec φ.bits) (h : (⟨2, ![A, B]⟩ : Shape).Reduces [0] ⟨1, ![B]⟩) (hφ : FKind.Formats φ)
    (hacc : acc = FKind.maximumf.neutral φ hφ) {u : Shape} (init : u.Idx → Ideal φ)
    (h' : (⟨3, ![N, A, B]⟩ : Shape).ReducesTo [1] ⟨2, ![N, B]⟩) (hR : (⟨3, ![N, A, B]⟩ : Shape).Reduces [1] ⟨2, ![N, B]⟩)
    (hu : 0 < u.numel) (hinit : init (Shape.Idx.first hu) = FloatOps.ofBits φ acc) :
    Sl1 b (multiReduction .maximumf [0] ⟨1, ![B]⟩ x acc h hφ hacc) (Host.reduce FloatOps.maximumf X init h' hu) := by
  intro j
  refine (Ideal.multiReduction_maximumf_single x acc h hφ hacc (ix1 j)).trans ?_
  refine Eq.trans ?_ (Host.reduce_eq_fold_single FloatOps.maximumf X init h' hR hu (ix2 b j)).symm
  rw [hinit]
  show (Finset.univ : Finset (Fin A)).fold max (FloatOps.ofBits φ acc) (x ∘ h.lift (ix1 j))
    = (Finset.univ : Finset (Fin A)).fold max (FloatOps.ofBits φ acc) (X ∘ hR.lift (ix2 b j))
  refine Finset.fold_congr fun k _ => ?_
  have el : h.lift (ix1 j) k = ix2 k j := funext fun a => Fin.ext (by match a with | ⟨0, _⟩ => rfl | ⟨1, _⟩ => rfl)
  have er : hR.lift (ix2 b j) k = ix3 b k j := funext fun a => Fin.ext (by match a with | ⟨0, _⟩ => rfl | ⟨1, _⟩ => rfl | ⟨2, _⟩ => rfl)
  show x (h.lift (ix1 j) k) = X (hR.lift (ix2 b j) k)
  rw [el, er]; exact hx k j

end Idealize.ShloMosaic.BatchSlice

end
-- ==== Proof.LibBatchMatmul.lean ====
/-
  Batch slices through matrix products. A plain matrix product `[M, K] × [K, P]` on the matrix unit, read at an entry at
  the ideal values, is the sum over the contraction coordinate of the operands' products; a batched host product is the
  same sum at each batch element. So the product of two batch-`b` slices is the batch-`b` slice of the batched
  product — whether the reference holds its right operand as the kernel does, or transposed and contracted on its
  last axis.
-/
import proofs.«139456_j84851373900367_1_alg».proof.Proof.LibBatchSlice

noncomputable section

namespace Idealize.ShloMosaic.BatchSlice

open Idealize.ShloMosaic Idealize.ShloMosaic.ValueIdx

variable {N M K P : ℕ} {φ₁ φ₂ ψ₁ ψ₂ χ χ' : FTy}

/-- A plain matrix product into a zero accumulator, at entry `(i, j)`: the sum over `k` of `x (i, k) · y (k, j)`. The
    record's four axis facts (which coordinate of the result or of the contraction index each operand axis reads) are
    hypotheses: a printed record proves them by unfolding its lists. -/
theorem matmul_plain_apply (d : DotDims ⟨2, ![M, K]⟩ ⟨2, ![K, P]⟩ ⟨2, ![M, P]⟩) (hr : d.contr.rank = 1)
    (hs : d.contr.size ⟨0, by omega⟩ = K)
    (l0 : ∀ (j : (⟨2, ![M, P]⟩ : Shape).Idx) (q : d.contr.Idx), (d.lhsIdx j q 0).val = (j 0).val)
    (l1 : ∀ (j : (⟨2, ![M, P]⟩ : Shape).Idx) (q : d.contr.Idx), (d.lhsIdx j q 1).val = (q ⟨0, by omega⟩).val)
    (r0 : ∀ (j : (⟨2, ![M, P]⟩ : Shape).Idx) (q : d.contr.Idx), (d.rhsIdx j q 0).val = (q ⟨0, by omega⟩).val)
    (r1 : ∀ (j : (⟨2, ![M, P]⟩ : Shape).Idx) (q : d.contr.Idx), (d.rhsIdx j q 1).val = (j 1).val)
    (prec : Option ContractPrecision) (x : FVec Ideal ⟨2, ![M, K]⟩ φ₁) (y : FVec Ideal ⟨2, ![K, P]⟩ φ₂) (i : Fin M) (j : Fin P) :
    matmul d prec x y (constant ⟨2, ![M, P]⟩ .f32 0x00000000#32) (ix2 i j) = ∑ k : Fin K, x (ix2 i k) * y (ix2 k j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact l0 _ _
    | ⟨1, _⟩ => exact (l1 _ _).trans hk)
  have er : d.rhsIdx (ix2 i j) ((contrEquiv1 d K hr hs).symm k) = ix2 k j := funext fun a => Fin.ext (by
    match a with
    | ⟨0, _⟩ => exact (r0 _ _).trans hk
    | ⟨1, _⟩ => exact r1 _ _)
  rw [el, er]

variable {b : Fin N}

/-- Two arrays that are, entry by entry, the same sums of products of a slice and a transposed slice: the kernel's
    `x · y` against the reference's product contracting both operands' last axes. -/
theorem sl_of_sums_lastLast {x : FVec Ideal ⟨2, ![M, K]⟩ φ₁} {X : FVec Ideal ⟨3, ![N, M, K]⟩ ψ₁}
    {y : FVec Ideal ⟨2, ![K, P]⟩ φ₂} {Y : FVec Ideal ⟨3, ![N, P, K]⟩ ψ₂} (hx : Sl b x X) (hy : SlT b y Y)
    {z : FVec Ideal ⟨2, ![M, P]⟩ χ} {Z : FVec Ideal ⟨3, ![N, M, P]⟩ χ'}
    (hz : ∀ (i : Fin M) (j : Fin P), z (ix2 i j) = ∑ k : Fin K, x (ix2 i k) * y (ix2 k j))
    (hZ : ∀ (i : Fin M) (j : Fin P), Z (ix3 b i j) = ∑ k : Fin K, X (ix3 b i k) * Y (ix3 b j k)) : Sl b z Z :=
  fun i j => (hz i j).trans ((Finset.sum_congr rfl fun k _ => by rw [hx i k, hy j k]).trans (hZ i j).symm)

/-- The same when the reference holds its right operand as the kernel does, `[N, K, P]`, contracted on its middle axis. -/
theorem sl_of_sums_lastMid {x : FVec Ideal ⟨2, ![M, K]⟩ φ₁} {X : FVec Ideal ⟨3, ![N, M, K]⟩ ψ₁}
    {y : FVec Ideal ⟨2, ![K, P]⟩ φ₂} {Y : FVec Ideal ⟨3, ![N, K, P]⟩ ψ₂} (hx : Sl b x X) (hy : Sl b y Y)
    {z : FVec Ideal ⟨2, ![M, P]⟩ χ} {Z : FVec Ideal ⟨3, ![N, M, P]⟩ χ'}
    (hz : ∀ (i : Fin M) (j : Fin P), z (ix2 i j) = ∑ k : Fin K, x (ix2 i k) * y (ix2 k j))
    (hZ : ∀ (i : Fin M) (j : Fin P), Z (ix3 b i j) = ∑ k : Fin K, X (ix3 b i k) * Y (ix3 b k j)) : Sl b z Z :=
  fun i j => (hz i j).trans ((Finset.sum_congr rfl fun k _ => by rw [hx i k, hy k j]).trans (hZ i j).symm)

end Idealize.ShloMosaic.BatchSlice

end
-- ==== Proof.LibConcat4.lean ====
/-
  Four arrays of one shape laid side by side along their last axis, read at an entry: the column `r = p · K + d` of
  the joined array is column `d` of piece `p`. Stated for four matrices `[A, K]` joined into `[A, L]` and for four
  stacks `[N, A, K]` joined into `[N, A, L]`; and, from the two, that joining the batch-`b` slices of four stacks gives
  the batch-`b` slice of the joined stack.
-/
import proofs.«139456_j84851373900367_1_alg».proof.Proof.LibBatchSlice

noncomputable section

namespace Idealize.ShloMosaic.BatchSlice

open Idealize.ShloMosaic Idealize.ShloMosaic.ValueIdx

variable {α : Type}

/-- Four matrices `[A, K]` joined along the columns, at `(i, r)` with `r = p · K + d`: piece `p` at `(i, d)`. -/
theorem concat4_cols_apply {A K L : ℕ} (x0 x1 x2 x3 : (⟨2, ![A, K]⟩ : Shape).Idx → α)
    (h : Shape.Concatenates [⟨2, ![A, K]⟩, ⟨2, ![A, K]⟩, ⟨2, ![A, K]⟩, ⟨2, ![A, K]⟩] ⟨2, ![A, L]⟩ 1)
    (i : Fin A) (r : Fin L) (p : Fin 4) (d : Fin K) (hrd : r.val = p.val * K + d.val) :
    concatenate ⟨2, ![A, L]⟩ 1 [⟨⟨2, ![A, K]⟩, x0⟩, ⟨⟨2, ![A, K]⟩, x1⟩, ⟨⟨2, ![A, K]⟩, x2⟩, ⟨⟨2, ![A, K]⟩, x3⟩] h (ix2 i r)
      = (![x0, x1, x2, x3] p) (ix2 i d) := by
  have hi : ∀ bb : Fin 2, bb.cast rfl ≠ (1 : Fin 2) → ((ix2 i d) bb).val = ((ix2 i r) (bb.cast rfl)).val := fun bb hb => by
    match bb with
    | ⟨0, _⟩ => rfl
    | ⟨1, _⟩ => exact absurd rfl hb
  match p, hrd with
  | ⟨0, _⟩, hrd =>
    have hrd' : r.val = 0 * K + d.val := hrd
    exact concatenate_apply_piece (t := ⟨2, ![A, L]⟩) 1 [⟨⟨2, ![A, K]⟩, x0⟩, ⟨⟨2, ![A, K]⟩, x1⟩, ⟨⟨2, ![A, K]⟩, x2⟩, ⟨⟨2, ![A, K]⟩, x3⟩] h (ix2 i r) 0 (by show (0 : ℕ) < 4; omega) _ x0 rfl rfl 0 rfl (ix2 i d) hi
      (by show 0 + d.val = r.val; omega)
  | ⟨1, _⟩, hrd =>
    have hrd' : r.val = 1 * K + d.val := hrd
    exact concatenate_apply_piece (t := ⟨2, ![A, L]⟩) 1 [⟨⟨2, ![A, K]⟩, x0⟩, ⟨⟨2, ![A, K]⟩, x1⟩, ⟨⟨2, ![A, K]⟩, x2⟩, ⟨⟨2, ![A, K]⟩, x3⟩] h (ix2 i r) 1 (by show (1 : ℕ) < 4; omega) _ x1 rfl rfl K rfl (ix2 i d) hi
      (by show K + d.val = r.val; omega)
  | ⟨2, _⟩, hrd =>
    have hrd' : r.val = 2 * K + d.val := hrd
    exact concatenate_apply_piece (t := ⟨2, ![A, L]⟩) 1 [⟨⟨2, ![A, K]⟩, x0⟩, ⟨⟨2, ![A, K]⟩, x1⟩, ⟨⟨2, ![A, K]⟩, x2⟩, ⟨⟨2, ![A, K]⟩, x3⟩] h (ix2 i r) 2 (by show (2 : ℕ) < 4; omega) _ x2 rfl rfl (K + K) rfl (ix2 i d) hi
      (by show K + K + d.val = r.val; omega)
  | ⟨3, _⟩, hrd =>
    have hrd' : r.val = 3 * K + d.val := hrd
    exact concatenate_apply_piece (t := ⟨2, ![A, L]⟩) 1 [⟨⟨2, ![A, K]⟩, x0⟩, ⟨⟨2, ![A, K]⟩, x1⟩, ⟨⟨2, ![A, K]⟩, x2⟩, ⟨⟨2, ![A, K]⟩, x3⟩] h (ix2 i r) 3 (by show (3 : ℕ) < 4; omega) _ x3 rfl rfl (K + (K + K)) rfl (ix2 i d) hi
      (by show K + (K + K) + d.val = r.val; omega)

/-- Four stacks `[N, A, K]` joined along the last axis, at `(b, i, r)` with `r = p · K + d`: piece `p` at `(b, i, d)`. -/
theorem concat4_last_apply {N A K L : ℕ} (x0 x1 x2 x3 : (⟨3, ![N, A, K]⟩ : Shape).Idx → α)
    (h : Shape.Concatenates [⟨3, ![N, A, K]⟩, ⟨3, ![N, A, K]⟩, ⟨3, ![N, A, K]⟩, ⟨3, ![N, A, K]⟩] ⟨3, ![N, A, L]⟩ 2)
    (b : Fin N) (i : Fin A) (r : Fin L) (p : Fin 4) (d : Fin K) (hrd : r.val = p.val * K + d.val) :
    concatenate ⟨3, ![N, A, L]⟩ 2 [⟨⟨3, ![N, A, K]⟩, x0⟩, ⟨⟨3, ![N, A, K]⟩, x1⟩, ⟨⟨3, ![N, A, K]⟩, x2⟩, ⟨⟨3, ![N, A, K]⟩, x3⟩] h (ix3 b i r)
      = (![x0, x1, x2, x3] p) (ix3 b i d) := by
  have hi : ∀ bb : Fin 3, bb.cast rfl ≠ (2 : Fin 3) → ((ix3 b i d) bb).val = ((ix3 b i r) (bb.cast rfl)).val := fun bb hb => by
    match bb with
    | ⟨0, _⟩ => rfl
    | ⟨1, _⟩ => rfl
    | ⟨2, _⟩ => exact absurd rfl hb
  match p, hrd with
  | ⟨0, _⟩, hrd =>
    have hrd' : r.val = 0 * K + d.val := hrd
    exact concatenate_apply_piece (t := ⟨3, ![N, A, L]⟩) 2 [⟨⟨3, ![N, A, K]⟩, x0⟩, ⟨⟨3, ![N, A, K]⟩, x1⟩, ⟨⟨3, ![N, A, K]⟩, x2⟩, ⟨⟨3, ![N, A, K]⟩, x3⟩] h (ix3 b i r) 0 (by show (0 : ℕ) < 4; omega) _ x0 rfl rfl 0 rfl (ix3 b i d) hi
      (by show 0 + d.val = r.val; omega)
  | ⟨1, _⟩, hrd =>
    have hrd' : r.val = 1 * K + d.val := hrd
    exact concatenate_apply_piece (t := ⟨3, ![N, A, L]⟩) 2 [⟨⟨3, ![N, A, K]⟩, x0⟩, ⟨⟨3, ![N, A, K]⟩, x1⟩, ⟨⟨3, ![N, A, K]⟩, x2⟩, ⟨⟨3, ![N, A, K]⟩, x3⟩] h (ix3 b i r) 1 (by show (1 : ℕ) < 4; omega) _ x1 rfl rfl K rfl (ix3 b i d) hi
      (by show K + d.val = r.val; omega)
  | ⟨2, _⟩, hrd =>
    have hrd' : r.val = 2 * K + d.val := hrd
    exact concatenate_apply_piece (t := ⟨3, ![N, A, L]⟩) 2 [⟨⟨3, ![N, A, K]⟩, x0⟩, ⟨⟨3, ![N, A, K]⟩, x1⟩, ⟨⟨3, ![N, A, K]⟩, x2⟩, ⟨⟨3, ![N, A, K]⟩, x3⟩] h (ix3 b i r) 2 (by show (2 : ℕ) < 4; omega) _ x2 rfl rfl (K + K) rfl (ix3 b i d) hi
      (by show K + K + d.val = r.val; omega)
  | ⟨3, _⟩, hrd =>
    have hrd' : r.val = 3 * K + d.val := hrd
    exact concatenate_apply_piece (t := ⟨3, ![N, A, L]⟩) 2 [⟨⟨3, ![N, A, K]⟩, x0⟩, ⟨⟨3, ![N, A, K]⟩, x1⟩, ⟨⟨3, ![N, A, K]⟩, x2⟩, ⟨⟨3, ![N, A, K]⟩, x3⟩] h (ix3 b i r) 3 (by show (3 : ℕ) < 4; omega) _ x3 rfl rfl (K + (K + K)) rfl (ix3 b i d) hi
      (by show K + (K + K) + d.val = r.val; omega)

/-- Joining the batch-`b` slices of four stacks along the columns gives the batch-`b` slice of the four stacks joined
    along their last axis, when the joined width is four piece widths. -/
theorem sl_concat4 {N A K L : ℕ} {φ ψ : FTy} {b : Fin N} (hK : 0 < K) (hL : L = 4 * K)
    {x0 x1 x2 x3 : FVec Ideal ⟨2, ![A, K]⟩ φ} {X0 X1 X2 X3 : FVec Ideal ⟨3, ![N, A, K]⟩ ψ}
    (h0 : Sl b x0 X0) (h1 : Sl b x1 X1) (h2 : Sl b x2 X2) (h3 : Sl b x3 X3)
    (h : Shape.Concatenates [⟨2, ![A, K]⟩, ⟨2, ![A, K]⟩, ⟨2, ![A, K]⟩, ⟨2, ![A, K]⟩] ⟨2, ![A, L]⟩ 1)
    (H : Shape.Concatenates [⟨3, ![N, A, K]⟩, ⟨3, ![N, A, K]⟩, ⟨3, ![N, A, K]⟩, ⟨3, ![N, A, K]⟩] ⟨3, ![N, A, L]⟩ 2) :
    Sl b (concatenate ⟨2, ![A, L]⟩ 1 [⟨⟨2, ![A, K]⟩, x0⟩, ⟨⟨2, ![A, K]⟩, x1⟩, ⟨⟨2, ![A, K]⟩, x2⟩, ⟨⟨2, ![A, K]⟩, x3⟩] h)
      (concatenate ⟨3, ![N, A, L]⟩ 2 [⟨⟨3, ![N, A, K]⟩, X0⟩, ⟨⟨3, ![N, A, K]⟩, X1⟩, ⟨⟨3, ![N, A, K]⟩, X2⟩, ⟨⟨3, ![N, A, K]⟩, X3⟩] H) := by
  intro i r
  have hr4 : r.val / K < 4 := by
    have := r.isLt
    exact (Nat.div_lt_iff_lt_mul hK).mpr (by omega)
  have hd : r.val % K < K := Nat.mod_lt _ hK
  have hrd : r.val = (⟨r.val / K, hr4⟩ : Fin 4).val * K + (⟨r.val % K, hd⟩ : Fin K).val := by
    show r.val = r.val / K * K + r.val % K
    rw [Nat.mul_comm]; exact (Nat.div_add_mod _ _).symm
  rw [concat4_cols_apply x0 x1 x2 x3 h i r ⟨r.val / K, hr4⟩ ⟨r.val % K, hd⟩ hrd,
    concat4_last_apply X0 X1 X2 X3 H b i r ⟨r.val / K, hr4⟩ ⟨r.val % K, hd⟩ hrd]
  generalize (⟨r.val / K, hr4⟩ : Fin 4) = p
  match p with
  | ⟨0, _⟩ => exact h0 i _
  | ⟨1, _⟩ => exact h1 i _
  | ⟨2, _⟩ => exact h2 i _
  | ⟨3, _⟩ => exact h3 i _

end Idealize.ShloMosaic.BatchSlice

end
-- ==== Proof.BodyProducts.lean ====
/-
  The four matrix products of the kernel's body, read at an entry. Each contracts the left operand's columns with the
  right operand's rows into a zero accumulator, so at the ideal values entry `(i, j)` is the sum over `k` of
  `x (i, k) · y (k, j)`: for the two `[1000, 128] × [128, 100]` products into the similarity, the
  `[1000, 100] × [100, 128]` attended query, the `[1000, 100] × [100, 1000]` product of the two softmaxes and the
  `[1000, 1000] × [1000, 128]` product with the transposed context. Per record, four facts say which coordinate of the
  result or of the contraction index each operand axis reads.
-/
import proofs.«139456_j84851373900367_1_alg».proof.Proof.Gen.KernelIdeal.Skeleton
import proofs.«139456_j84851373900367_1_alg».proof.Proof.RefRead
import proofs.«139456_j84851373900367_1_alg».proof.Proof.LibBatchReduce
import proofs.«139456_j84851373900367_1_alg».proof.Proof.LibBatchMatmul
import proofs.«139456_j84851373900367_1_alg».proof.Proof.LibConcat4

noncomputable section

namespace Cert.Bridge

open Idealize.ShloMosaic Idealize.ShloMosaic.ValueIdx Idealize.ShloMosaic.BatchSlice
open Cert.KernelIdeal Cert.KernelIdeal.Gen Cert.ReferenceIdeal.ReadP

/-! ## The body's four matrix products, read at an entry

Each record contracts the left operand's columns with the right operand's rows; the four facts per record say which
coordinate each operand axis reads. -/

/-! ### `[1000, 128] × [128, 100]`: the two products into the similarity -/

theorem mmS_l0 (j : S1000x100.Idx) (q : dot_S1000x128_S128x100_S1000x100_1_0_0_1_n_n.contr.Idx) :
    (dot_S1000x128_S128x100_S1000x100_1_0_0_1_n_n.lhsIdx j q 0).val = (j 0).val := by
  unfold DotDims.lhsIdx
  rw [dif_neg (show ¬(0 : Fin S1000x128.rank) ∈ dot_S1000x128_S128x100_S1000x100_1_0_0_1_n_n.lhsBatch by decide), dif_pos (show (0 : Fin S1000x128.rank) ∈ dot_S1000x128_S128x100_S1000x100_1_0_0_1_n_n.lhsNonContracting by decide)]
  rfl
theorem mmS_l1 (j : S1000x100.Idx) (q : dot_S1000x128_S128x100_S1000x100_1_0_0_1_n_n.contr.Idx) :
    (dot_S1000x128_S128x100_S1000x100_1_0_0_1_n_n.lhsIdx j q 1).val = (q ⟨0, by decide⟩).val :=
  dot_S1000x128_S128x100_S1000x100_1_0_0_1_n_n.lhsIdx_val_of_single rfl j q
theorem mmS_r0 (j : S1000x100.Idx) (q : dot_S1000x128_S128x100_S1000x100_1_0_0_1_n_n.contr.Idx) :
    (dot_S1000x128_S128x100_S1000x100_1_0_0_1_n_n.rhsIdx j q 0).val = (q ⟨0, by decide⟩).val :=
  dot_S1000x128_S128x100_S1000x100_1_0_0_1_n_n.rhsIdx_val_of_single rfl j q
theorem mmS_r1 (j : S1000x100.Idx) (q : dot_S1000x128_S128x100_S1000x100_1_0_0_1_n_n.contr.Idx) :
    (dot_S1000x128_S128x100_S1000x100_1_0_0_1_n_n.rhsIdx j q 1).val = (j 1).val := by
  unfold DotDims.rhsIdx
  rw [dif_neg (show ¬(1 : Fin S128x100.rank) ∈ dot_S1000x128_S128x100_S1000x100_1_0_0_1_n_n.rhsBatch by decide), dif_pos (show (1 : Fin S128x100.rank) ∈ dot_S1000x128_S128x100_S1000x100_1_0_0_1_n_n.rhsNonContracting by decide)]
  rfl

theorem mmS_apply (x : FVec Ideal S1000x128 .bf16) (y : FVec Ideal S128x100 .bf16) (i : Fin 1000) (j : Fin 100) :
    matmul dot_S1000x128_S128x100_S1000x100_1_0_0_1_n_n none x y (constant S1000x100 .f32 0x00000000#32) (ix2 i j)
      = ∑ k : Fin 128, x (ix2 i k) * y (ix2 k j) :=
  matmul_plain_apply dot_S1000x128_S128x100_S1000x100_1_0_0_1_n_n rfl rfl mmS_l0 mmS_l1 mmS_r0 mmS_r1 none x y i j

/-! ### `[1000, 100] × [100, 128]`: the attended query -/

theorem mmA_l0 (j : S1000x128.Idx) (q : dot_S1000x100_S100x128_S1000x128_1_0_0_1_n_n.contr.Idx) :
    (dot_S1000x100_S100x128_S1000x128_1_0_0_1_n_n.lhsIdx j q 0).val = (j 0).val := by
  unfold DotDims.lhsIdx
  rw [dif_neg (show ¬(0 : Fin S1000x100.rank) ∈ dot_S1000x100_S100x128_S1000x128_1_0_0_1_n_n.lhsBatch by decide), dif_pos (show (0 : Fin S1000x100.rank) ∈ dot_S1000x100_S100x128_S1000x128_1_0_0_1_n_n.lhsNonContracting by decide)]
  rfl
theorem mmA_l1 (j : S1000x128.Idx) (q : dot_S1000x100_S100x128_S1000x128_1_0_0_1_n_n.contr.Idx) :
    (dot_S1000x100_S100x128_S1000x128_1_0_0_1_n_n.lhsIdx j q 1).val = (q ⟨0, by decide⟩).val :=
  dot_S1000x100_S100x128_S1000x128_1_0_0_1_n_n.lhsIdx_val_of_single rfl j q
theorem mmA_r0 (j : S1000x128.Idx) (q : dot_S1000x100_S100x128_S1000x128_1_0_0_1_n_n.contr.Idx) :
    (dot_S1000x100_S100x128_S1000x128_1_0_0_1_n_n.rhsIdx j q 0).val = (q ⟨0, by decide⟩).val :=
  dot_S1000x100_S100x128_S1000x128_1_0_0_1_n_n.rhsIdx_val_of_single rfl j q
theorem mmA_r1 (j : S1000x128.Idx) (q : dot_S1000x100_S100x128_S1000x128_1_0_0_1_n_n.contr.Idx) :
    (dot_S1000x100_S100x128_S1000x128_1_0_0_1_n_n.rhsIdx j q 1).val = (j 1).val := by
  unfold DotDims.rhsIdx
  rw [dif_neg (show ¬(1 : Fin S100x128.rank) ∈ dot_S1000x100_S100x128_S1000x128_1_0_0_1_n_n.rhsBatch by decide), dif_pos (show (1 : Fin S100x128.rank) ∈ dot_S1000x100_S100x128_S1000x128_1_0_0_1_n_n.rhsNonContracting by decide)]
  rfl

theorem mmA_apply (x : FVec Ideal S1000x100 .bf16) (y : FVec Ideal S100x128 .bf16) (i : Fin 1000) (j : Fin 128) :
    matmul dot_S1000x100_S100x128_S1000x128_1_0_0_1_n_n none x y (constant S1000x128 .f32 0x00000000#32) (ix2 i j)
      = ∑ k : Fin 100, x (ix2 i k) * y (ix2 k j) :=
  matmul_plain_apply dot_S1000x100_S100x128_S1000x128_1_0_0_1_n_n rfl rfl mmA_l0 mmA_l1 mmA_r0 mmA_r1 none x y i j

/-! ### `[1000, 100] × [100, 1000]`: the product of the two softmaxes -/

theorem mmP_l0 (j : S1000x1000.Idx) (q : dot_S1000x100_S100x1000_S1000x1000_1_0_0_1_n_n.contr.Idx) :
    (dot_S1000x100_S100x1000_S1000x1000_1_0_0_1_n_n.lhsIdx j q 0).val = (j 0).val := by
  unfold DotDims.lhsIdx
  rw [dif_neg (show ¬(0 : Fin S1000x100.rank) ∈ dot_S1000x100_S100x1000_S1000x1000_1_0_0_1_n_n.lhsBatch by decide), dif_pos (show (0 : Fin S1000x100.rank) ∈ dot_S1000x100_S100x1000_S1000x1000_1_0_0_1_n_n.lhsNonContracting by decide)]
  rfl
theorem mmP_l1 (j : S1000x1000.Idx) (q : dot_S1000x100_S100x1000_S1000x1000_1_0_0_1_n_n.contr.Idx) :
    (dot_S1000x100_S100x1000_S1000x1000_1_0_0_1_n_n.lhsIdx j q 1).val = (q ⟨0, by decide⟩).val :=
  dot_S1000x100_S100x1000_S1000x1000_1_0_0_1_n_n.lhsIdx_val_of_single rfl j q
theorem mmP_r0 (j : S1000x1000.Idx) (q : dot_S1000x100_S100x1000_S1000x1000_1_0_0_1_n_n.contr.Idx) :
    (dot_S1000x100_S100x1000_S1000x1000_1_0_0_1_n_n.rhsIdx j q 0).val = (q ⟨0, by decide⟩).val :=
  dot_S1000x100_S100x1000_S1000x1000_1_0_0_1_n_n.rhsIdx_val_of_single rfl j q
theorem mmP_r1 (j : S1000x1000.Idx) (q : dot_S1000x100_S100x1000_S1000x1000_1_0_0_1_n_n.contr.Idx) :
    (dot_S1000x100_S100x1000_S1000x1000_1_0_0_1_n_n.rhsIdx j q 1).val = (j 1).val := by
  unfold DotDims.rhsIdx
  rw [dif_neg (show ¬(1 : Fin S100x1000.rank) ∈ dot_S1000x100_S100x1000_S1000x1000_1_0_0_1_n_n.rhsBatch by decide), dif_pos (show (1 : Fin S100x1000.rank) ∈ dot_S1000x100_S100x1000_S1000x1000_1_0_0_1_n_n.rhsNonContracting by decide)]
  rfl

theorem mmP_apply (x : FVec Ideal S1000x100 .bf16) (y : FVec Ideal S100x1000 .bf16) (i : Fin 1000) (j : Fin 1000) :
    matmul dot_S1000x100_S100x1000_S1000x1000_1_0_0_1_n_n none x y (constant S1000x1000 .f32 0x00000000#32) (ix2 i j)
      = ∑ k : Fin 100, x (ix2 i k) * y (ix2 k j) :=
  matmul_plain_apply dot_S1000x100_S100x1000_S1000x1000_1_0_0_1_n_n rfl rfl mmP_l0 mmP_l1 mmP_r0 mmP_r1 none x y i j

/-! ### `[1000, 1000] × [1000, 128]`: that product applied to the transposed context -/

theorem mmB_l0 (j : S1000x128.Idx) (q : dot_S1000x1000_S1000x128_S1000x128_1_0_0_1_n_n.contr.Idx) :
    (dot_S1000x1000_S1000x128_S1000x128_1_0_0_1_n_n.lhsIdx j q 0).val = (j 0).val := by
  unfold DotDims.lhsIdx
  rw [dif_neg (show ¬(0 : Fin S1000x1000.rank) ∈ dot_S1000x1000_S1000x128_S1000x128_1_0_0_1_n_n.lhsBatch by decide), dif_pos (show (0 : Fin S1000x1000.rank) ∈ dot_S1000x1000_S1000x128_S1000x128_1_0_0_1_n_n.lhsNonContracting by decide)]
  rfl
theorem mmB_l1 (j : S1000x128.Idx) (q : dot_S1000x1000_S1000x128_S1000x128_1_0_0_1_n_n.contr.Idx) :
    (dot_S1000x1000_S1000x128_S1000x128_1_0_0_1_n_n.lhsIdx j q 1).val = (q ⟨0, by decide⟩).val :=
  dot_S1000x1000_S1000x128_S1000x128_1_0_0_1_n_n.lhsIdx_val_of_single rfl j q
theorem mmB_r0 (j : S1000x128.Idx) (q : dot_S1000x1000_S1000x128_S1000x128_1_0_0_1_n_n.contr.Idx) :
    (dot_S1000x1000_S1000x128_S1000x128_1_0_0_1_n_n.rhsIdx j q 0).val = (q ⟨0, by decide⟩).val :=
  dot_S1000x1000_S1000x128_S1000x128_1_0_0_1_n_n.rhsIdx_val_of_single rfl j q
theorem mmB_r1 (j : S1000x128.Idx) (q : dot_S1000x1000_S1000x128_S1000x128_1_0_0_1_n_n.contr.Idx) :
    (dot_S1000x1000_S1000x128_S1000x128_1_0_0_1_n_n.rhsIdx j q 1).val = (j 1).val := by
  unfold DotDims.rhsIdx
  rw [dif_neg (show ¬(1 : Fin S1000x128.rank) ∈ dot_S1000x1000_S1000x128_S1000x128_1_0_0_1_n_n.rhsBatch by decide), dif_pos (show (1 : Fin S1000x128.rank) ∈ dot_S1000x1000_S1000x128_S1000x128_1_0_0_1_n_n.rhsNonContracting by decide)]
  rfl

theorem mmB_apply (x : FVec Ideal S1000x1000 .bf16) (y : FVec Ideal S1000x128 .bf16) (i : Fin 1000) (j : Fin 128) :
    matmul dot_S1000x1000_S1000x128_S1000x128_1_0_0_1_n_n none x y (constant S1000x128 .f32 0x00000000#32) (ix2 i j)
      = ∑ k : Fin 1000, x (ix2 i k) * y (ix2 k j) :=
  matmul_plain_apply dot_S1000x1000_S1000x128_S1000x128_1_0_0_1_n_n rfl rfl mmB_l0 mmB_l1 mmB_r0 mmB_r1 none x y i j

end Cert.Bridge

end
-- ==== Proof.BodyStages.lean ====
/-
  The kernel's body at one batch element against the reference's stages. The kernel runs one grid point per batch
  element `b`: it loads the `[128, 1000]` context block, the `[128, 100]` query block and the `[1000, 384]` weight block
  of that batch element and computes, on matrices, what the reference computes on stacks of 64 matrices. Step by step,
  each intermediate matrix of the body is the batch-`b` slice of the reference's stage that plays the same part in the
  mathematics: the transposed context Cᵗ and query Qᵗ, the three weight slices w₁, w₂, w₃, the similarity
  S = w₁·Q + rowsum(w₂ ∘ Cᵗ) + (w₃ ∘ Cᵗ)·Q, its softmax over the query positions S₁ and the exponentials of its softmax
  over the context positions, then S₂, the attended query A = S₁·Qᵗ, the product (S₁·S₂ᵗ)·Cᵗ, and the four blocks
  Cᵗ, A, Cᵗ ∘ A, Cᵗ ∘ ((S₁·S₂ᵗ)·Cᵗ) laid side by side and transposed. At the ideal values a change of float format is
  the identity, the matrix unit's product and the host's `dot_general` are the same finite sums, and the kernel's and the
  host's exponential, quotient, sum and maximum are the same functions; both sides add the three terms of S in the same
  grouping; so term-by-term agreement is all that is used, and no finiteness of the inputs.
-/
import proofs.«139456_j84851373900367_1_alg».proof.Proof.BodyProducts

noncomputable section

namespace Cert.Bridge

open Idealize.ShloMosaic Idealize.ShloMosaic.ValueIdx Idealize.ShloMosaic.BatchSlice
open Cert.KernelIdeal Cert.KernelIdeal.Gen Cert.ReferenceIdeal.ReadP

/-! ## The operand indices of the reference's five products, at an entry given by coordinates -/

section RefIdx
variable (b : Fin 64)

theorem lidx_v6 (i : Fin 1000) (j : Fin 100) (k : Fin 128) : lidx_main_v6 (ix3 b i j) k = ix3 b i k :=
  funext fun a => Fin.ext (by match a with | ⟨0, _⟩ => rfl | ⟨1, _⟩ => rfl | ⟨2, _⟩ => rfl)
theorem ridx_v6 (i : Fin 1000) (j : Fin 100) (k : Fin 128) : ridx_main_v6 (ix3 b i j) k = ix3 b j k :=
  funext fun a => Fin.ext (by match a with | ⟨0, _⟩ => rfl | ⟨1, _⟩ => rfl | ⟨2, _⟩ => rfl)
theorem lidx_v13 (i : Fin 1000) (j : Fin 100) (k : Fin 128) : lidx_main_v13 (ix3 b i j) k = ix3 b i k :=
  funext fun a => Fin.ext (by match a with | ⟨0, _⟩ => rfl | ⟨1, _⟩ => rfl | ⟨2, _⟩ => rfl)
theorem ridx_v13 (i : Fin 1000) (j : Fin 100) (k : Fin 128) : ridx_main_v13 (ix3 b i j) k = ix3 b j k :=
  funext fun a => Fin.ext (by match a with | ⟨0, _⟩ => rfl | ⟨1, _⟩ => rfl | ⟨2, _⟩ => rfl)
theorem lidx_v37 (i : Fin 1000) (j : Fin 128) (k : Fin 100) : lidx_main_v37 (ix3 b i j) k = ix3 b i k :=
  funext fun a => Fin.ext (by match a with | ⟨0, _⟩ => rfl | ⟨1, _⟩ => rfl | ⟨2, _⟩ => rfl)
theorem ridx_v37 (i : Fin 1000) (j : Fin 128) (k : Fin 100) : ridx_main_v37 (ix3 b i j) k = ix3 b k j :=
  funext fun a => Fin.ext (by match a with | ⟨0, _⟩ => rfl | ⟨1, _⟩ => rfl | ⟨2, _⟩ => rfl)
theorem lidx_v38 (i : Fin 1000) (j : Fin 1000) (k : Fin 100) : lidx_main_v38 (ix3 b i j) k = ix3 b i k :=
  funext fun a => Fin.ext (by match a with | ⟨0, _⟩ => rfl | ⟨1, _⟩ => rfl | ⟨2, _⟩ => rfl)
theorem ridx_v38 (i : Fin 1000) (j : Fin 1000) (k : Fin 100) : ridx_main_v38 (ix3 b i j) k = ix3 b j k :=
  funext fun a => Fin.ext (by match a with | ⟨0, _⟩ => rfl | ⟨1, _⟩ => rfl | ⟨2, _⟩ => rfl)
theorem lidx_v39 (i : Fin 1000) (j : Fin 128) (k : Fin 1000) : lidx_main_v39 (ix3 b i j) k = ix3 b i k :=
  funext fun a => Fin.ext (by match a with | ⟨0, _⟩ => rfl | ⟨1, _⟩ => rfl | ⟨2, _⟩ => rfl)
theorem ridx_v39 (i : Fin 1000) (j : Fin 128) (k : Fin 1000) : ridx_main_v39 (ix3 b i j) k = ix3 b k j :=
  funext fun a => Fin.ext (by match a with | ⟨0, _⟩ => rfl | ⟨1, _⟩ => rfl | ⟨2, _⟩ => rfl)
theorem idx_v43 (r : Fin 512) (i : Fin 1000) : idx_main_v43 (ix3 b r i) = ix3 b i r :=
  funext fun a => Fin.ext (by match a with | ⟨0, _⟩ => rfl | ⟨1, _⟩ => rfl | ⟨2, _⟩ => rfl)

end RefIdx

/-! ## The stages -/

section Stages
variable (b : Fin 64)
  (C : FVec Ideal ⟨3, ![64, 128, 1000]⟩ .f32) (Q : FVec Ideal ⟨3, ![64, 128, 100]⟩ .f32) (W : FVec Ideal ⟨3, ![64000, 1, 384]⟩ .f32)
  (Cb : Vec Ideal S1x128x1000 .f32) (Qb : Vec Ideal S1x128x100 .f32) (Wb : Vec Ideal S1x1000x384 .f32)
  (hC : ∀ (d : Fin 128) (i : Fin 1000), Cb (ix3 (0 : Fin 1) d i) = C (ix3 b d i))
  (hQ : ∀ (d : Fin 128) (j : Fin 100), Qb (ix3 (0 : Fin 1) d j) = Q (ix3 b d j))
  (hW : ∀ (i : Fin 1000) (e : Fin 384), Wb (ix3 (0 : Fin 1) i e) = val_main_v2 (F := Ideal) W (ix3 b i e))

/-- The weight block as a `[1000, 384]` matrix, and its three `[1000, 128]` column slices w₁, w₂, w₃. -/
abbrev kW : FVec Ideal S1000x384 .f32 := shapeCast S1000x384 Wb shapeCasts_S1x1000x384_S1000x384
abbrev kW1 : FVec Ideal S1000x128 .f32 := extractStridedSlice S1000x128 ![0, 0] (kW Wb) slices_S1000x384_o0_0_S1000x128
abbrev kW2 : FVec Ideal S1000x128 .f32 := extractStridedSlice S1000x128 ![0, 128] (kW Wb) slices_S1000x384_o0_128_S1000x128
abbrev kW3 : FVec Ideal S1000x128 .f32 := extractStridedSlice S1000x128 ![0, 256] (kW Wb) slices_S1000x384_o0_256_S1000x128

include hC in
/-- Cᵗ: the context block transposed is the batch slice of the reference's transposed context. -/
theorem ct : Sl (ψ := .f32) b (k0_pay3 (F := Ideal) Cb) (val_main_v0 (F := Ideal) C) :=
  slT_toSl (sl_transpose (sl_ofBlock hC shapeCasts_S1x128x1000_S128x1000) transposes_S128x1000_p1_0_S1000x128) _

include hQ in
/-- Q as the kernel holds it, `[128, 100]`, is the transposed batch slice of the reference's Qᵗ. -/
theorem qn : SlT (ψ := .f32) b (k0_pay2 (F := Ideal) Qb) (val_main_v1 (F := Ideal) Q) :=
  sl_toSlT (sl_ofBlock hQ shapeCasts_S1x128x100_S128x100) _

include hQ in
/-- Qᵗ. -/
theorem qt : Sl (ψ := .f32) b (k0_pay4 (F := Ideal) Qb) (val_main_v1 (F := Ideal) Q) :=
  slT_toSl (sl_transpose (sl_ofBlock hQ shapeCasts_S1x128x100_S128x100) transposes_S128x100_p1_0_S100x128) _

include hW in
theorem wv : Sl (ψ := .f32) b (kW Wb) (val_main_v2 (F := Ideal) W) := sl_ofBlock hW _

include hW in
theorem w1 : Sl (ψ := .f32) b (kW1 Wb) (val_main_v3 (F := Ideal) W) := sl_cols (wv b W Wb hW) 0 _ _
include hW in
theorem w2 : Sl (ψ := .f32) b (kW2 Wb) (val_main_v4 (F := Ideal) W) := sl_cols (wv b W Wb hW) 128 _ _
include hW in
theorem w3 : Sl (ψ := .f32) b (kW3 Wb) (val_main_v5 (F := Ideal) W) := sl_cols (wv b W Wb hW) 256 _ _

/-- The reference's zero starting values are the extended real 0. -/
theorem cst_zero (h : 0 < (⟨0, ![]⟩ : Shape).numel) : val_main_cst (F := Ideal) (Shape.Idx.first h) = 0 := Ideal.ofBits_zero_f32
theorem cst2_zero (h : 0 < (⟨0, ![]⟩ : Shape).numel) : val_main_cst_2 (F := Ideal) (Shape.Idx.first h) = 0 := Ideal.ofBits_zero_f32
theorem cst5_zero (h : 0 < (⟨0, ![]⟩ : Shape).numel) : val_main_cst_5 (F := Ideal) (Shape.Idx.first h) = 0 := Ideal.ofBits_zero_f32

include hC hQ hW in
/-- The similarity S = w₁·Q + rowsum(w₂ ∘ Cᵗ) + (w₃ ∘ Cᵗ)·Q, the three terms added in the same grouping on both sides. -/
theorem sS : Sl (ψ := .f32) b (k0_pay5 (F := Ideal) Cb Qb Wb) (val_main_v14 (F := Ideal) C Q W) :=
  sl_addf
    (sl_addf
      (sl_of_sums_lastLast (sl_truncf (w1 b W Wb hW) _) (slT_truncf (qn b Q Qb hQ) _) (fun i j => mmS_apply _ _ i j)
        (fun i j => (val_main_v6_apply Q W (ix3 b i j)).trans (Finset.sum_congr rfl fun k _ => by rw [lidx_v6, ridx_v6])))
      (sl_colBroadcast
        (sl1_rowSum (sl_mulf (w2 b W Wb hW) (ct b C Cb hC)) _ _ _ _ _ _ (by decide) _ (cst_zero _)) _ _ _ _))
    (sl_of_sums_lastLast (sl_truncf (sl_mulf (w3 b W Wb hW) (ct b C Cb hC)) _) (slT_truncf (qn b Q Qb hQ) _) (fun i j => mmS_apply _ _ i j)
      (fun i j => (val_main_v13_apply C Q W (ix3 b i j)).trans (Finset.sum_congr rfl fun k _ => by rw [lidx_v13, ridx_v13]; rfl)))

include hC hQ hW in
/-- S₁, the softmax of S over the query positions: each row less its maximum, exponentiated, over the row's sum. -/
theorem s1 : Sl (ψ := .f32) b (k0_pay6 (F := Ideal) Cb Qb Wb) (val_main_v25 (F := Ideal) C Q W) :=
  have hS := sS b C Q W Cb Qb Wb hC hQ hW
  have hmax := sl1_maximumf_const (Ideal.ofBits .f32 0xFF800000#32) (fun _ => rfl)
    (fun i => (val_main_v16_apply (F := Ideal) i).trans rfl)
    (sl1_rowMax hS _ _ _ _ _ _ (by decide) _ rfl)
  have he := sl_exp (sl_subf hS (sl_colBroadcast hmax _ _ _ _))
  sl_divf he (sl_colBroadcast (sl1_rowSum he _ _ _ _ _ _ (by decide) _ (cst2_zero _)) _ _ _ _)

include hC hQ hW in
/-- The numerator of S₂, the softmax of S over the context positions: each column less its maximum, exponentiated. -/
theorem e2 : Sl (ψ := .f32) b (k0_pay7 (F := Ideal) Cb Qb Wb) (val_main_v32 (F := Ideal) C Q W) :=
  have hS := sS b C Q W Cb Qb Wb hC hQ hW
  have hmax := sl1_maximumf_const (Ideal.ofBits .f32 0xFF800000#32) (fun _ => rfl)
    (fun i => (val_main_v27_apply (F := Ideal) i).trans rfl)
    (sl1_colMax hS _ _ _ _ _ _ (by decide) _ rfl)
  sl_exp (sl_subf hS (sl_rowBroadcast hmax _ _ _ _))

end Stages

end Cert.Bridge

end
-- ==== Proof.BodyOutput.lean ====
/-
  The block the kernel stores, entry by entry. From the transposed context Cᵗ, the transposed query Qᵗ, the row softmax
  S₁ and the column-wise exponentials E of one batch element `b`, the body's last part forms S₂ = E over its column
  sums, A = S₁·Qᵗ, P = S₁·S₂ᵗ, Bm = P·Cᵗ, lays Cᵗ, A, Cᵗ ∘ A, Cᵗ ∘ Bm side by side along the feature axis and stores the
  transpose, a `[1, 512, 1000]` block. Each of these is the batch-`b` slice of the reference's stage that plays the same
  part, so entry `(0, r, i)` of the stored block is entry `(b, r, i)` of the reference's result.
-/
import proofs.«139456_j84851373900367_1_alg».proof.Proof.BodyStages

noncomputable section

namespace Cert.Bridge

open Idealize.ShloMosaic Idealize.ShloMosaic.ValueIdx Idealize.ShloMosaic.BatchSlice
open Cert.KernelIdeal Cert.KernelIdeal.Gen Cert.ReferenceIdeal.ReadP

section Output
variable (b : Fin 64)
  (C : FVec Ideal ⟨3, ![64, 128, 1000]⟩ .f32) (Q : FVec Ideal ⟨3, ![64, 128, 100]⟩ .f32) (W : FVec Ideal ⟨3, ![64000, 1, 384]⟩ .f32)
  (v6 : FVec Ideal S1000x128 .f32) (v7 : FVec Ideal S100x128 .f32) (v33 v40 : FVec Ideal S1000x100 .f32)
  (h6 : Sl (ψ := .f32) b v6 (val_main_v0 (F := Ideal) C)) (h7 : Sl (ψ := .f32) b v7 (val_main_v1 (F := Ideal) Q))
  (h33 : Sl (ψ := .f32) b v33 (val_main_v25 (F := Ideal) C Q W)) (h40 : Sl (ψ := .f32) b v40 (val_main_v32 (F := Ideal) C Q W))

/-- S₂: the exponentials over their column sums. -/
abbrev kS2 : FVec Ideal S1000x100 .f32 :=
  divf v40 (broadcastTo S1000x100 (shapeCast S1x100 (multiReduction .add [0] S100 v40 0x00000000#32 reduces_S1000x100_S100 (.inl rfl) rfl) shapeCasts_S100_S1x100) broadcasts_S1x100_S1000x100)

include h40 in
theorem s2 : Sl (ψ := .f32) b (kS2 v40) (val_main_v36 (F := Ideal) C Q W) :=
  sl_divf h40 (sl_rowBroadcast (sl1_colSum h40 _ _ _ _ _ _ (by decide) _ (cst5_zero _)) _ _ _ _)

/-- A = S₁·Qᵗ. -/
abbrev kA : FVec Ideal S1000x128 .f32 :=
  matmul dot_S1000x100_S100x128_S1000x128_1_0_0_1_n_n none (truncf .bf16 v33 bitsLt_bf16_f32) (truncf .bf16 v7 bitsLt_bf16_f32) (constant S1000x128 .f32 0x00000000#32)

include h7 h33 in
theorem attended : Sl (ψ := .f32) b (kA v7 v33) (val_main_v37 (F := Ideal) C Q W) :=
  sl_of_sums_lastMid (sl_truncf h33 _) (sl_truncf h7 _) (fun i j => mmA_apply _ _ i j)
    (fun i j => (val_main_v37_apply C Q W (ix3 b i j)).trans (Finset.sum_congr rfl fun k _ => by rw [lidx_v37, ridx_v37]))

/-- P = S₁·S₂ᵗ. -/
abbrev kP : FVec Ideal S1000x1000 .f32 :=
  matmul dot_S1000x100_S100x1000_S1000x1000_1_0_0_1_n_n none (truncf .bf16 v33 bitsLt_bf16_f32)
    (transpose S100x1000 [1, 0] (truncf .bf16 (kS2 v40) bitsLt_bf16_f32) transposes_S1000x100_p1_0_S100x1000) (constant S1000x1000 .f32 0x00000000#32)

include h33 h40 in
theorem softmaxProduct : Sl (ψ := .f32) b (kP v33 v40) (val_main_v38 (F := Ideal) C Q W) :=
  sl_of_sums_lastLast (sl_truncf h33 _) (sl_transpose (sl_truncf (s2 b C Q W v40 h40) _) _) (fun i j => mmP_apply _ _ i j)
    (fun i j => (val_main_v38_apply C Q W (ix3 b i j)).trans (Finset.sum_congr rfl fun k _ => by rw [lidx_v38, ridx_v38]))

/-- Bm = P·Cᵗ. -/
abbrev kBm : FVec Ideal S1000x128 .f32 :=
  matmul dot_S1000x1000_S1000x128_S1000x128_1_0_0_1_n_n none (truncf .bf16 (kP v33 v40) bitsLt_bf16_f32) (truncf .bf16 v6 bitsLt_bf16_f32) (constant S1000x128 .f32 0x00000000#32)

include h6 h33 h40 in
theorem contextProduct : Sl (ψ := .f32) b (kBm v6 v33 v40) (val_main_v39 (F := Ideal) C Q W) :=
  sl_of_sums_lastMid (sl_truncf (softmaxProduct b C Q W v33 v40 h33 h40) _) (sl_truncf h6 _) (fun i j => mmB_apply _ _ i j)
    (fun i j => (val_main_v39_apply C Q W (ix3 b i j)).trans (Finset.sum_congr rfl fun k _ => by rw [lidx_v39, ridx_v39]))

/-- The four blocks side by side: `[1000, 512]`. -/
abbrev kCat : FVec Ideal S1000x512 .f32 :=
  concatenate S1000x512 1 [⟨S1000x128, v6⟩, ⟨S1000x128, kA v7 v33⟩, ⟨S1000x128, mulf v6 (kA v7 v33)⟩, ⟨S1000x128, mulf v6 (kBm v6 v33 v40)⟩]
    concatenates_S1000x128_S1000x128_S1000x128_S1000x128_S1000x512_d1

include h6 h7 h33 h40 in
theorem joined : Sl (ψ := .f32) b (kCat v6 v7 v33 v40) (val_main_v42 (F := Ideal) C Q W) :=
  have hA := attended b C Q W v7 v33 h7 h33
  have hB := contextProduct b C Q W v6 v33 v40 h6 h33 h40
  sl_concat4 (by decide) rfl h6 hA (sl_mulf h6 hA) (sl_mulf h6 hB) _ _

include h6 h7 h33 h40 in
/-- Entry `(0, r, i)` of the stored block is entry `(b, r, i)` of the reference's result. -/
theorem out_entry (r : Fin 512) (i : Fin 1000) :
    k0_pay1 (F := Ideal) v6 v7 v33 v40 (ix3 (0 : Fin 1) r i) = val_main_v43 (F := Ideal) C Q W (ix3 b r i) := by
  refine (shapeCast_ab_1ab_apply (transpose S512x1000 [1, 0] (kCat v6 v7 v33 v40) transposes_S1000x512_p1_0_S512x1000)
    shapeCasts_S512x1000_S1x512x1000 (0 : Fin 1) r i).trans ?_
  refine (transpose_ix2_apply (kCat v6 v7 v33 v40) transposes_S1000x512_p1_0_S512x1000 r i).trans ?_
  refine (joined b C Q W v6 v7 v33 v40 h6 h7 h33 h40 i r).trans ?_
  rw [val_main_v43_apply, idx_v43]

end Output

/-! ## The whole body at one batch element -/

section Body
variable (b : Fin 64)
  (C : FVec Ideal ⟨3, ![64, 128, 1000]⟩ .f32) (Q : FVec Ideal ⟨3, ![64, 128, 100]⟩ .f32) (W : FVec Ideal ⟨3, ![64000, 1, 384]⟩ .f32)
  (Cb : Vec Ideal S1x128x1000 .f32) (Qb : Vec Ideal S1x128x100 .f32) (Wb : Vec Ideal S1x1000x384 .f32)
  (hC : ∀ (d : Fin 128) (i : Fin 1000), Cb (ix3 (0 : Fin 1) d i) = C (ix3 b d i))
  (hQ : ∀ (d : Fin 128) (j : Fin 100), Qb (ix3 (0 : Fin 1) d j) = Q (ix3 b d j))
  (hW : ∀ (i : Fin 1000) (e : Fin 384), Wb (ix3 (0 : Fin 1) i e) = val_main_v2 (F := Ideal) W (ix3 b i e))

include hC hQ hW in
/-- From blocks that hold the batch-`b` entries of the context, the query and the reshaped weights, the body stores
    the batch-`b` block of the reference's result. -/
theorem body_entry (r : Fin 512) (i : Fin 1000) :
    k0_pay1 (F := Ideal) (k0_pay3 Cb) (k0_pay4 Qb) (k0_pay6 Cb Qb Wb) (k0_pay7 Cb Qb Wb) (ix3 (0 : Fin 1) r i)
      = val_main_v43 (F := Ideal) C Q W (ix3 b r i) :=
  out_entry b C Q W _ _ _ _ (ct b C Cb hC) (qt b Q Qb hQ) (s1 b C Q W Cb Qb Wb hC hQ hW) (e2 b C Q W Cb Qb Wb hC hQ hW) r i

end Body

end Cert.Bridge

end
-- ==== Proof.KernelValue.lean ====
/-
  The kernel's result array. The grid has one point per batch element: point `t` stages block `t` (along the batch axis)
  of the context, of the query and of the weights — the weights as the host reshape `[64000, 1, 384] → [64, 1000, 384]`
  before the region left them — and writes back block `t` of the output. What it writes back is the body's stored
  block, which entry by entry is block `t` of the reference's last stage applied to the kernel's own argument arrays.
  The 64 blocks tile the output array, so after the run the output array IS that stage of the arguments.
-/
import proofs.«139456_j84851373900367_1_alg».proof.Proof.Gen.KernelIdeal.Value
import proofs.«139456_j84851373900367_1_alg».proof.Proof.BodyOutput
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The reference's last stage of the kernel's own argument arrays: what the output array ends holding. -/
abbrev G (c : Dev nD) : Buf (Elt Ideal) ((c : Thread nD τ).loc main_v1) :=
  Cert.ReferenceIdeal.ReadP.val_main_v43 (F := Ideal) (m ((c : Thread nD τ).loc main_arg0)) (m ((c : Thread nD τ).loc main_arg1))
    (m ((c : Thread nD τ).loc main_arg2))

theorem hz : (![0, 0, 0] : Fin 3 → Nat) = fun _ => 0 := funext fun a => by fin_cases a <;> rfl

/-- The weights as the region finds them: the host reshape of the third argument. -/
theorem V_main_v0 (c : Dev nD) :
    (V m c main_v0 : S64x1000x384.Idx → EReal)
      = Cert.ReferenceIdeal.ReadP.val_main_v2 (F := Ideal) (m ((c : Thread nD τ).loc main_arg2)) := by
  dsimp only [V, hostOps0]; after_results; rfl

/-- The index maps over the grid: every window's block index is the point's number on the batch axis and zero on the
    other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Every batch element is some point's. -/
theorem idx_onto : ∀ q : Fin 64, ∃ t : Fin cfg0.N, t.val = q.val :=
  (by decide +kernel : ∀ q : Fin 64, ∃ t : Fin grid0.N, t.val = q.val)

/-- The batch element of a grid point. -/
abbrev bOf (t : Fin cfg0.N) : Fin 64 := Fin.cast N_0 t

/-- The three input blocks at a point, at their literal types. -/
abbrev cblk (c : Dev nD) (t : Fin cfg0.N) : Vec Ideal S1x128x1000 .f32 := iblk m c 0 t
abbrev qblk (c : Dev nD) (t : Fin cfg0.N) : Vec Ideal S1x128x100 .f32 := iblk m c 1 t
abbrev wblk (c : Dev nD) (t : Fin cfg0.N) : Vec Ideal S1x1000x384 .f32 := iblk m c 2 t

theorem cblk_entry (c : Dev nD) (t : Fin cfg0.N) (d : Fin 128) (i : Fin 1000) :
    cblk m c t (ix3 (0 : Fin 1) d i) = m ((c : Thread nD τ).loc main_arg0) (ix3 (bOf t) d i) := by
  obtain ⟨e0, e1, e2, -⟩ := idx_facts t
  show V m c main_arg0 (((cfg0.win 0).blk t).view.emb (ix3 (0 : Fin 1) d i)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 128 + 1 * d.val = d.val; omega
  | ⟨2, _⟩ => show win0_0.index t (2 : Fin 3) * 1000 + 1 * i.val = i.val; omega

theorem qblk_entry (c : Dev nD) (t : Fin cfg0.N) (d : Fin 128) (j : Fin 100) :
    qblk m c t (ix3 (0 : Fin 1) d j) = m ((c : Thread nD τ).loc main_arg1) (ix3 (bOf t) d j) := by
  obtain ⟨-, -, -, e0, e1, e2, -⟩ := idx_facts t
  show V m c main_arg1 (((cfg0.win 1).blk t).view.emb (ix3 (0 : Fin 1) d j)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 128 + 1 * d.val = d.val; omega
  | ⟨2, _⟩ => show win0_1.index t (2 : Fin 3) * 100 + 1 * j.val = j.val; omega

theorem wblk_entry (c : Dev nD) (t : Fin cfg0.N) (i : Fin 1000) (e : Fin 384) :
    wblk m c t (ix3 (0 : Fin 1) i e)
      = Cert.ReferenceIdeal.ReadP.val_main_v2 (F := Ideal) (m ((c : Thread nD τ).loc main_arg2)) (ix3 (bOf t) i e) := by
  obtain ⟨-, -, -, -, -, -, e0, e1, e2, -⟩ := idx_facts t
  show V m c main_v0 (((cfg0.win 2).blk t).view.emb (ix3 (0 : Fin 1) i e)) = _
  rw [V_main_v0]
  refine congrArg _ (funext fun a => Fin.ext ?_)
  match a with
  | ⟨0, _⟩ => show win0_2.index t (0 : Fin 3) * 1 + 1 * 0 = t.val; omega
  | ⟨1, _⟩ => show win0_2.index t (1 : Fin 3) * 1000 + 1 * i.val = i.val; omega
  | ⟨2, _⟩ => show win0_2.index t (2 : Fin 3) * 384 + 1 * e.val = e.val; omega

/-- The body's stored block at point `t`, entry by entry, is block `t` of `G`. -/
theorem stored_entry (c : Dev nD) (t : Fin cfg0.N) (y : S1x512x1000.Idx) :
    k0_pay1 (F := Ideal) (k0_pay3 (cblk m c t)) (k0_pay4 (qblk m c t)) (k0_pay6 (cblk m c t) (qblk m c t) (wblk m c t))
        (k0_pay7 (cblk m c t) (qblk m c t) (wblk m c t)) y
      = G m c (((cfg0.win 3).blk t).view.emb y) := by
  obtain ⟨u, r, i, rfl⟩ : ∃ (u : Fin 1) (r : Fin 512) (i : Fin 1000), y = ix3 u r i := ⟨y 0, y 1, y 2, eq_ix3 y⟩
  obtain rfl : u = 0 := Subsingleton.elim _ _
  obtain ⟨-, -, -, -, -, -, -, -, -, e0, e1, e2⟩ := idx_facts t
  rw [Cert.Bridge.body_entry (bOf t) _ _ _ (cblk m c t) (qblk m c t) (wblk m c t) (cblk_entry m c t) (qblk_entry m c t)
    (wblk_entry m c t) r i]
  refine congrArg _ (funext fun a => Fin.ext ?_)
  match a with
  | ⟨0, _⟩ => show t.val = win0_3.index t (0 : Fin 3) * 1 + 1 * 0; omega
  | ⟨1, _⟩ => show r.val = win0_3.index t (1 : Fin 3) * 512 + 1 * r.val; omega
  | ⟨2, _⟩ => show i.val = win0_3.index t (2 : Fin 3) * 1000 + 1 * i.val; omega

/-- What point `t` writes back is block `t` of `G`. -/
theorem flushed_eq (c : Dev nD) (t : Fin cfg0.N) :
    (dats m 0 c).flushed 3 t = ((cfg0.win 3).blk t).view.read (Elt Ideal) (G m c) := by
  rw [Cert.KernelIdeal.Value.flushed3]
  unfold out0_3
  rw [View.canon_unit_zero hz]
  simp only [View.ld_unit_zero (S := S1x128x1000) hz, View.ld_unit_zero (S := S1x128x100) hz, View.ld_unit_zero (S := S1x1000x384) hz]
  exact funext fun y => stored_entry m c t y

/-- An index of the output array is in point `t`'s block iff each coordinate is in the block's range on its axis. -/
theorem mem_blk (t : Fin cfg0.N) (i : S64x512x1000.Idx) :
    i ∈ ((cfg0.win 3).blk t).view.set ↔ ∀ a : Fin 3, win0_3.index t a * S1x512x1000.size a ≤ (i a).val ∧ (i a).val < win0_3.index t a * S1x512x1000.size a + S1x512x1000.size a := by
  show i ∈ ((View.whole main_v1).slice (win0_3.rect t)).set ↔ _
  rw [View.set_slice_whole, Rect.mem_set_unit]
  exact Iff.rfl

/-- The 64 blocks cover the output array: the index with batch coordinate `q` is in the block of the point numbered `q`. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 1000 := (i 2).isLt
  obtain ⟨t, ht⟩ := idx_onto ⟨(i 0).val, hi0⟩
  have ht' : t.val = (i 0).val := ht
  obtain ⟨-, -, -, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1000 ≤ (i 2).val ∧ (i 2).val < win0_3.index t (2 : Fin 3) * 1000 + 1000; omega

/-- The output array after the run is `G`. -/
theorem final (c : Dev nD) : (dats m 0 c).arrAt 3 cfg0.N = G m c :=
  (dats m 0 c).arrAt_eq_of_cover 3 (G m c) (fun t _ => flushed_eq m c t) (cover c)

/-- The kernel's run: every weakly fair execution terminates with the output array at the reference's last stage of the
    argument arrays, and the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KValue

end
-- ==== Proof.RefRun.lean ====
/-
  The reference's run. The reference is a straight line of 51 host operations; its run is the fold of their results
  over the launch contents (the library's `run_seq`). The line is read in two windows, cut before its one
  concatenate: after the first 49 operations the transposed context `main_v0`, the context-to-query product
  `main_v37` and the two products `main_v40`, `main_v41` hold their stages (the stage functions `val_…` of the
  argument arrays); the last two operations lay those four side by side along the feature axis and swap the last two
  axes, which is the stage `val_main_v43`. So every weakly fair execution ends with the result at that stage of the
  arguments and the arguments unchanged.
-/
import proofs.«139456_j84851373900367_1_alg».proof.Proof.RefRead
import Idealize.ShloMosaic.Lib.Pipeline.Frame

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first 49 operations: everything up to the four arrays the concatenate joins. -/
abbrev opsA : List (HloOp τ sig (Elt F)) :=
  [ unary main_arg0 main_v0 ((transpose S64x1000x128 [0, 2, 1] · transposes_S64x128x1000_S64x1000x128_0_2_1) : (⟨S64x128x1000, .f32⟩ : BufTy).Contents (Elt F) → (⟨S64x1000x128, .f32⟩ : BufTy).Contents (Elt F)),
    unary main_arg1 main_v1 ((transpose S64x100x128 [0, 2, 1] · transposes_S64x128x100_S64x100x128_0_2_1) : (⟨S64x128x100, .f32⟩ : BufTy).Contents (Elt F) → (⟨S64x100x128, .f32⟩ : BufTy).Contents (Elt F)),
    reshape main_arg2 main_v2 rfl shapeCasts_S64000x1x384_S64x1000x384,
    unary main_v2 main_v3 ((extractStridedSlice S64x1000x128 ![0, 0, 0] · slices_S64x1000x384_S64x1000x128_0_0_0) : (⟨S64x1000x384, .f32⟩ : BufTy).Contents (Elt F) → (⟨S64x1000x128, .f32⟩ : BufTy).Contents (Elt F)),
    unary main_v2 main_v4 ((extractStridedSlice S64x1000x128 ![0, 0, 128] · slices_S64x1000x384_S64x1000x128_0_0_128) : (⟨S64x1000x384, .f32⟩ : BufTy).Contents (Elt F) → (⟨S64x1000x128, .f32⟩ : BufTy).Contents (Elt F)),
    unary main_v2 main_v5 ((extractStridedSlice S64x1000x128 ![0, 0, 256] · slices_S64x1000x384_S64x1000x128_0_0_256) : (⟨S64x1000x384, .f32⟩ : BufTy).Contents (Elt F) → (⟨S64x1000x128, .f32⟩ : BufTy).Contents (Elt F)),
    binary main_v3 main_v1 main_v6 ((fun l r => Host.dotGeneral dot_S64x1000x128_S64x100x128_S64x1000x100_2_2_1_1_0_0 none l r) : (⟨S64x1000x128, .f32⟩ : BufTy).Contents (Elt F) → (⟨S64x100x128, .f32⟩ : BufTy).Contents (Elt F) → (⟨S64x1000x100, .f32⟩ : BufTy).Contents (Elt F)),
    binary main_v4 main_v0 main_v7 (mulf : (⟨S64x1000x128, .f32⟩ : BufTy).Contents (Elt F) → (⟨S64x1000x128, .f32⟩ : BufTy).Contents (Elt F) → (⟨S64x1000x128, .f32⟩ : BufTy).Contents (Elt F)),
    nullary main_cst (constant S_ .f32 0x00000000#32),
    binary main_v7 main_cst main_v8 ((fun x v => Host.reduceAdd x v reducesTo_S64x1000x128_S64x1000_d2 h_S_) : (⟨S64x1000x128, .f32⟩ : BufTy).Contents (Elt F) → (⟨S_, .f32⟩ : BufTy).Contents (Elt F) → (⟨S64x1000, .f32⟩ : BufTy).Contents (Elt F)),
    unary main_v8 main_v9 (broadcastInDim S64x1000x1 ![0, 1] bcast_S64x1000_S64x1000x1_0_1 : (⟨S64x1000, .f32⟩ : BufTy).Contents (Elt F) → (⟨S64x1000x1, .f32⟩ : BufTy).Contents (Elt F)),
    unary main_v9 main_v10 (broadcastInDim S64x1000x100 ![0, 1, 2] bcast_S64x1000x1_S64x1000x100_0_1_2 : (⟨S64x1000x1, .f32⟩ : BufTy).Contents (Elt F) → (⟨S64x1000x100, .f32⟩ : BufTy).Contents (Elt F)),
    binary main_v6 main_v10 main_v11 (addf : (⟨S64x1000x100, .f32⟩ : BufTy).Contents (Elt F) → (⟨S64x1000x100, .f32⟩ : BufTy).Contents (Elt F) → (⟨S64x1000x100, .f32⟩ : BufTy).Contents (Elt F)),
    binary main_v5 main_v0 main_v12 (mulf : (⟨S64x1000x128, .f32⟩ : BufTy).Contents (Elt F) → (⟨S64x1000x128, .f32⟩ : BufTy).Contents (Elt F) → (⟨S64x1000x128, .f32⟩ : BufTy).Contents (Elt F)),
    binary main_v12 main_v1 main_v13 ((fun l r => Host.dotGeneral dot_S64x1000x128_S64x100x128_S64x1000x100_2_2_1_1_0_0 none l r) : (⟨S64x1000x128, .f32⟩ : BufTy).Contents (Elt F) → (⟨S64x100x128, .f32⟩ : BufTy).Contents (Elt F) → (⟨S64x1000x100, .f32⟩ : BufTy).Contents (Elt F)),
    binary main_v11 main_v13 main_v14 (addf : (⟨S64x1000x100, .f32⟩ : BufTy).Contents (Elt F) → (⟨S64x1000x100, .f32⟩ : BufTy).Contents (Elt F) → (⟨S64x1000x100, .f32⟩ : BufTy).Contents (Elt F)),
    nullary main_cst_0 (constant S_ .f32 0xFF800000#32),
    binary main_v14 main_cst_0 main_v15 ((fun x v => Host.reduce FloatOps.maximumf x v reducesTo_S64x1000x100_S64x1000_d2 h_S_) : (⟨S64x1000x100, .f32⟩ : BufTy).Contents (Elt F) → (⟨S_, .f32⟩ : BufTy).Contents (Elt F) → (⟨S64x1000, .f32⟩ : BufTy).Contents (Elt F)),
    nullary main_cst_1 (constant S_ .f32 0xFF800000#32),
    unary main_cst_1 main_v16 (broadcastInDim S64x1000 ![] bcast_S_S64x1000 : (⟨S_, .f32⟩ : BufTy).Contents (Elt F) → (⟨S64x1000, .f32⟩ : BufTy).Contents (Elt F)),
    binary main_v16 main_v15 main_v17 (maximumf : (⟨S64x1000, .f32⟩ : BufTy).Contents (Elt F) → (⟨S64x1000, .f32⟩ : BufTy).Contents (Elt F) → (⟨S64x1000, .f32⟩ : BufTy).Contents (Elt F)),
    unary main_v17 main_v18 (broadcastInDim S64x1000x1 ![0, 1] bcast_S64x1000_S64x1000x1_0_1 : (⟨S64x1000, .f32⟩ : BufTy).Contents (Elt F) → (⟨S64x1000x1, .f32⟩ : BufTy).Contents (Elt F)),
    unary main_v18 main_v19 (broadcastInDim S64x1000x100 ![0, 1, 2] bcast_S64x1000x1_S64x1000x100_0_1_2 : (⟨S64x1000x1, .f32⟩ : BufTy).Contents (Elt F) → (⟨S64x1000x100, .f32⟩ : BufTy).Contents (Elt F)),
    binary main_v14 main_v19 main_v20 (subf : (⟨S64x1000x100, .f32⟩ : BufTy).Contents (Elt F) → (⟨S64x1000x100, .f32⟩ : BufTy).Contents (Elt F) → (⟨S64x1000x100, .f32⟩ : BufTy).Contents (Elt F)),
    unary main_v20 main_v21 (Host.exp : (⟨S64x1000x100, .f32⟩ : BufTy).Contents (Elt F) → (⟨S64x1000x100, .f32⟩ : BufTy).Contents (Elt F)),
    nullary main_cst_2 (constant S_ .f32 0x00000000#32),
    binary main_v21 main_cst_2 main_v22 ((fun x v => Host.reduceAdd x v reducesTo_S64x1000x100_S64x1000_d2 h_S_) : (⟨S64x1000x100, .f32⟩ : BufTy).Contents (Elt F) → (⟨S_, .f32⟩ : BufTy).Contents (Elt F) → (⟨S64x1000, .f32⟩ : BufTy).Contents (Elt F)),
    unary main_v22 main_v23 (broadcastInDim S64x1000x1 ![0, 1] bcast_S64x1000_S64x1000x1_0_1 : (⟨S64x1000, .f32⟩ : BufTy).Contents (Elt F) → (⟨S64x1000x1, .f32⟩ : BufTy).Contents (Elt F)),
    unary main_v23 main_v24 (broadcastInDim S64x1000x100 ![0, 1, 2] bcast_S64x1000x1_S64x1000x100_0_1_2 : (⟨S64x1000x1, .f32⟩ : BufTy).Contents (Elt F) → (⟨S64x1000x100, .f32⟩ : BufTy).Contents (Elt F)),
    binary main_v21 main_v24 main_v25 (Host.divf : (⟨S64x1000x100, .f32⟩ : BufTy).Contents (Elt F) → (⟨S64x1000x100, .f32⟩ : BufTy).Contents (Elt F) → (⟨S64x1000x100, .f32⟩ : BufTy).Contents (Elt F)),
    nullary main_cst_3 (constant S_ .f32 0xFF800000#32),
    binary main_v14 main_cst_3 main_v26 ((fun x v => Host.reduce FloatOps.maximumf x v reducesTo_S64x1000x100_S64x100_d1 h_S_) : (⟨S64x1000x100, .f32⟩ : BufTy).Contents (Elt F) → (⟨S_, .f32⟩ : BufTy).Contents (Elt F) → (⟨S64x100, .f32⟩ : BufTy).Contents (Elt F)),
    nullary main_cst_4 (constant S_ .f32 0xFF800000#32),
    unary main_cst_4 main_v27 (broadcastInDim S64x100 ![] bcast_S_S64x100 : (⟨S_, .f32⟩ : BufTy).Contents (Elt F) → (⟨S64x100, .f32⟩ : BufTy).Contents (Elt F)),
    binary main_v27 main_v26 main_v28 (maximumf : (⟨S64x100, .f32⟩ : BufTy).Contents (Elt F) → (⟨S64x100, .f32⟩ : BufTy).Contents (Elt F) → (⟨S64x100, .f32⟩ : BufTy).Contents (Elt F)),
    unary main_v28 main_v29 (broadcastInDim S64x1x100 ![0, 2] bcast_S64x100_S64x1x100_0_2 : (⟨S64x100, .f32⟩ : BufTy).Contents (Elt F) → (⟨S64x1x100, .f32⟩ : BufTy).Contents (Elt F)),
    unary main_v29 main_v30 (broadcastInDim S64x1000x100 ![0, 1, 2] bcast_S64x1x100_S64x1000x100_0_1_2 : (⟨S64x1x100, .f32⟩ : BufTy).Contents (Elt F) → (⟨S64x1000x100, .f32⟩ : BufTy).Contents (Elt F)),
    binary main_v14 main_v30 main_v31 (subf : (⟨S64x1000x100, .f32⟩ : BufTy).Contents (Elt F) → (⟨S64x1000x100, .f32⟩ : BufTy).Contents (Elt F) → (⟨S64x1000x100, .f32⟩ : BufTy).Contents (Elt F)),
    unary main_v31 main_v32 (Host.exp : (⟨S64x1000x100, .f32⟩ : BufTy).Contents (Elt F) → (⟨S64x1000x100, .f32⟩ : BufTy).Contents (Elt F)),
    nullary main_cst_5 (constant S_ .f32 0x00000000#32),
    binary main_v32 main_cst_5 main_v33 ((fun x v => Host.reduceAdd x v reducesTo_S64x1000x100_S64x100_d1 h_S_) : (⟨S64x1000x100, .f32⟩ : BufTy).Contents (Elt F) → (⟨S_, .f32⟩ : BufTy).Contents (Elt F) → (⟨S64x100, .f32⟩ : BufTy).Contents (Elt F)),
    unary main_v33 main_v34 (broadcastInDim S64x1x100 ![0, 2] bcast_S64x100_S64x1x100_0_2 : (⟨S64x100, .f32⟩ : BufTy).Contents (Elt F) → (⟨S64x1x100, .f32⟩ : BufTy).Contents (Elt F)),
    unary main_v34 main_v35 (broadcastInDim S64x1000x100 ![0, 1, 2] bcast_S64x1x100_S64x1000x100_0_1_2 : (⟨S64x1x100, .f32⟩ : BufTy).Contents (Elt F) → (⟨S64x1000x100, .f32⟩ : BufTy).Contents (Elt F)),
    binary main_v32 main_v35 main_v36 (Host.divf : (⟨S64x1000x100, .f32⟩ : BufTy).Contents (Elt F) → (⟨S64x1000x100, .f32⟩ : BufTy).Contents (Elt F) → (⟨S64x1000x100, .f32⟩ : BufTy).Contents (Elt F)),
    binary main_v25 main_v1 main_v37 ((fun l r => Host.dotGeneral dot_S64x1000x100_S64x100x128_S64x1000x128_2_1_1_2_0_0 none l r) : (⟨S64x1000x100, .f32⟩ : BufTy).Contents (Elt F) → (⟨S64x100x128, .f32⟩ : BufTy).Contents (Elt F) → (⟨S64x1000x128, .f32⟩ : BufTy).Contents (Elt F)),
    binary main_v25 main_v36 main_v38 ((fun l r => Host.dotGeneral dot_S64x1000x100_S64x1000x100_S64x1000x1000_2_2_1_1_0_0 none l r) : (⟨S64x1000x100, .f32⟩ : BufTy).Contents (Elt F) → (⟨S64x1000x100, .f32⟩ : BufTy).Contents (Elt F) → (⟨S64x1000x1000, .f32⟩ : BufTy).Contents (Elt F)),
    binary main_v38 main_v0 main_v39 ((fun l r => Host.dotGeneral dot_S64x1000x1000_S64x1000x128_S64x1000x128_2_1_1_2_0_0 none l r) : (⟨S64x1000x1000, .f32⟩ : BufTy).Contents (Elt F) → (⟨S64x1000x128, .f32⟩ : BufTy).Contents (Elt F) → (⟨S64x1000x128, .f32⟩ : BufTy).Contents (Elt F)),
    binary main_v0 main_v37 main_v40 (mulf : (⟨S64x1000x128, .f32⟩ : BufTy).Contents (Elt F) → (⟨S64x1000x128, .f32⟩ : BufTy).Contents (Elt F) → (⟨S64x1000x128, .f32⟩ : BufTy).Contents (Elt F)),
    binary main_v0 main_v39 main_v41 (mulf : (⟨S64x1000x128, .f32⟩ : BufTy).Contents (Elt F) → (⟨S64x1000x128, .f32⟩ : BufTy).Contents (Elt F) → (⟨S64x1000x128, .f32⟩ : BufTy).Contents (Elt F)) ]

/-- The last two operations: the concatenate along the feature axis and the swap of the last two axes. -/
abbrev opsB : List (HloOp τ sig (Elt F)) :=
  [ nary ![main_v0, main_v37, main_v40, main_v41] main_v42 (fun u => concatenate S64x1000x512 2 [⟨S64x1000x128, u 0⟩, ⟨S64x1000x128, u 1⟩, ⟨S64x1000x128, u 2⟩, ⟨S64x1000x128, u 3⟩] concatenates_S64x1000x128_S64x1000x128_S64x1000x128_S64x1000x128_S64x1000x512_d2),
    unary main_v42 main_v43 ((transpose S64x512x1000 [0, 2, 1] · transposes_S64x1000x512_S64x512x1000_0_2_1) : (⟨S64x1000x512, .f32⟩ : BufTy).Contents (Elt F) → (⟨S64x512x1000, .f32⟩ : BufTy).Contents (Elt F)) ]

/-- The whole line. -/
abbrev ops : List (HloOp τ sig (Elt F)) := opsA ++ opsB

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., unary_bufs_sub .., reshape_bufs_sub .., unary_bufs_sub .., unary_bufs_sub .., unary_bufs_sub .., binary_bufs_sub .., binary_bufs_sub .., nullary_bufs_sub .., binary_bufs_sub .., unary_bufs_sub .., unary_bufs_sub .., binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., binary_bufs_sub ..⟩
theorem opsB_sub : (opsB : List (HloOp τ sig (Elt F))).Forall fun op => op.bufs ⊆ tcRefs τ sig :=
  ⟨nary_bufs_sub .., unary_bufs_sub ..⟩
theorem ops_sub : (ops : List (HloOp τ sig (Elt F))).Forall fun op => op.bufs ⊆ tcRefs τ sig :=
  List.forall_append.mpr ⟨opsA_sub, opsB_sub⟩

/-- No operation of the line allocates: each determines its results. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem ops_fresh : ∀ op ∈ (ops : List (HloOp τ sig (Elt F))), op.fresh = ∅ :=
  fun op h => (List.mem_append.mp h).elim (opsA_fresh op) (opsB_fresh op)

/-! ## The first window: the four arrays the concatenate joins, as stages of the arguments -/

section Windows
variable (V : Valuation τ sig (Elt F))

set_option maxRecDepth 16384 in
theorem winA_v0 : after opsA V (Proc.devRef .tc main_v0) = val_main_v0 (F := F) (V (Proc.devRef .tc main_arg0)) := by
  after_results_simp <;> rfl

set_option maxRecDepth 16384 in
set_option maxHeartbeats 2000000 in
theorem winA_v37 : after opsA V (Proc.devRef .tc main_v37)
    = val_main_v37 (F := F) (V (Proc.devRef .tc main_arg0)) (V (Proc.devRef .tc main_arg1)) (V (Proc.devRef .tc main_arg2)) := by
  after_results_simp <;> rfl

set_option maxRecDepth 16384 in
set_option maxHeartbeats 2000000 in
theorem winA_v40 : after opsA V (Proc.devRef .tc main_v40)
    = val_main_v40 (F := F) (V (Proc.devRef .tc main_arg0)) (V (Proc.devRef .tc main_arg1)) (V (Proc.devRef .tc main_arg2)) := by
  after_results_simp <;> rfl

set_option maxRecDepth 16384 in
set_option maxHeartbeats 2000000 in
theorem winA_v41 : after opsA V (Proc.devRef .tc main_v41)
    = val_main_v41 (F := F) (V (Proc.devRef .tc main_arg0)) (V (Proc.devRef .tc main_arg1)) (V (Proc.devRef .tc main_arg2)) := by
  after_results_simp <;> rfl

/-- The first window writes no argument. -/
theorem winA_arg0 : after opsA V (Proc.devRef .tc main_arg0) = V (Proc.devRef .tc main_arg0) := by after_results_simp <;> rfl
theorem winA_arg1 : after opsA V (Proc.devRef .tc main_arg1) = V (Proc.devRef .tc main_arg1) := by after_results_simp <;> rfl
theorem winA_arg2 : after opsA V (Proc.devRef .tc main_arg2) = V (Proc.devRef .tc main_arg2) := by after_results_simp <;> rfl

/-! ## The second window: the four arrays side by side, last two axes swapped -/

theorem winB_v43 : after opsB V (Proc.devRef .tc main_v43)
    = transpose S64x512x1000 [0, 2, 1] (concatenate S64x1000x512 2 [⟨S64x1000x128, V (Proc.devRef .tc main_v0)⟩, ⟨S64x1000x128, V (Proc.devRef .tc main_v37)⟩, ⟨S64x1000x128, V (Proc.devRef .tc main_v40)⟩, ⟨S64x1000x128, V (Proc.devRef .tc main_v41)⟩] concatenates_S64x1000x128_S64x1000x128_S64x1000x128_S64x1000x128_S64x1000x512_d2) transposes_S64x1000x512_S64x512x1000_0_2_1 := by
  after_results; rfl

/-- The second window writes no argument. -/
theorem winB_arg0 : after opsB V (Proc.devRef .tc main_arg0) = V (Proc.devRef .tc main_arg0) := by after_results <;> rfl
theorem winB_arg1 : after opsB V (Proc.devRef .tc main_arg1) = V (Proc.devRef .tc main_arg1) := by after_results <;> rfl
theorem winB_arg2 : after opsB V (Proc.devRef .tc main_arg2) = V (Proc.devRef .tc main_arg2) := by after_results <;> rfl

/-! ## The whole line -/

/-- After the whole line the result buffer holds the last stage of the arguments. -/
theorem result_v43 : after ops V (Proc.devRef .tc main_v43)
    = val_main_v43 (F := F) (V (Proc.devRef .tc main_arg0)) (V (Proc.devRef .tc main_arg1)) (V (Proc.devRef .tc main_arg2)) := by
  rw [StableHlo.after_append, winB_v43, winA_v0, winA_v37, winA_v40, winA_v41]; rfl

theorem kept_arg0 : after ops V (Proc.devRef .tc main_arg0) = V (Proc.devRef .tc main_arg0) := by
  rw [StableHlo.after_append, winB_arg0, winA_arg0]
theorem kept_arg1 : after ops V (Proc.devRef .tc main_arg1) = V (Proc.devRef .tc main_arg1) := by
  rw [StableHlo.after_append, winB_arg1, winA_arg1]
theorem kept_arg2 : after ops V (Proc.devRef .tc main_arg2) = V (Proc.devRef .tc main_arg2) := by
  rw [StableHlo.after_append, winB_arg2, winA_arg2]

end Windows

/-- On every device, from any memory with zero counters: every weakly fair execution of the reference terminates with its
    result at the last stage of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = val_main_v43 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v43).trans (result_v43 _),
      (h c main_arg0).trans (kept_arg0 _),
      (h c main_arg1).trans (kept_arg1 _),
      (h c main_arg2).trans (kept_arg2 _)⟩)
    (run_seq scopedRefs_eq scopedSems_eq defs main (fun _ => ops) main_eq (fun _ => ops_sub) m ρ (fun _ => ops_fresh))

end Cert.ReferenceIdeal.RefRun

end
-- ==== Proof.lean ====
/-
  Context-query attention, one grid point per batch element, against its batched jnp reference, over the extended reals.

  Per batch element both programs compute, from the context C [128, 1000], the query Q [128, 100] and the weight rows
  w₁ | w₂ | w₃ [1000, 3·128]: the similarity S = w₁·Q + rowsum(w₂ ∘ Cᵗ) + (w₃ ∘ Cᵗ)·Q, its softmax S₁ over the query
  positions and S₂ over the context positions (each: subtract the maximum, exponentiate, divide by the sum), the
  attended query A = S₁·Qᵗ and B = (S₁·S₂ᵗ)·Cᵗ, and return the transpose of [Cᵗ | A | Cᵗ ∘ A | Cᵗ ∘ B]. The kernel
  computes its products on the matrix unit from bf16-cast operands, which at the ideal values is the identity on the
  operands and the same finite sum as the host's product; its sums, maxima, exponentials and quotients are the host's
  functions; and it adds the three terms of S in the reference's grouping. So the two results agree entry by entry with
  no use of the inputs' finiteness.

  The kernel's frames are the generated ones. Its value: the body's stored block at grid point `t` is, entry by entry,
  block `t` of the reference's last stage applied to the kernel's own arguments (Proof/BodyProducts.lean, BodyStages.lean,
  BodyOutput.lean over the general lemmas of LibBatchSlice.lean, LibBatchReduce.lean, LibBatchMatmul.lean, LibConcat4.lean), and
  the 64 blocks tile the output (Proof/KernelValue.lean). The reference's run ends with its result at that same stage of its
  arguments (Proof/RefRun.lean, over the stage functions of Proof/RefRead.lean); its frame is that run with the result dropped.
  The idealization rewrote nothing, so `preserves` is `True`.
-/
import proofs.«139456_j84851373900367_1_alg».proof.Defs
import proofs.«139456_j84851373900367_1_alg».proof.Proof.Gen.Kernel
import proofs.«139456_j84851373900367_1_alg».proof.Proof.Gen.Kernel.Frame
import proofs.«139456_j84851373900367_1_alg».proof.Proof.Gen.KernelIdeal
import proofs.«139456_j84851373900367_1_alg».proof.Proof.Gen.KernelIdeal.Frame
import proofs.«139456_j84851373900367_1_alg».proof.Proof.Gen.ReferenceIdeal
import proofs.«139456_j84851373900367_1_alg».proof.Proof.Gen.Pre_finite_inputs
import proofs.«139456_j84851373900367_1_alg».proof.Proof.KernelValue
import proofs.«139456_j84851373900367_1_alg».proof.Proof.RefRun
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end with the result array at the reference's last stage of the (agreeing) arguments. -/
theorem algebraic : Cert.algebraic_KernelIdeal_ReferenceIdeal := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
